-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x80 : Shape := ⟨3, ![16, 900, 80]⟩
abbrev S16x900x4 : Shape := ⟨3, ![16, 900, 4]⟩
abbrev S1600x4 : Shape := ⟨2, ![1600, 4]⟩
abbrev S1600 : Shape := ⟨1, ![1600]⟩
abbrev S_ : Shape := ⟨0, ![]⟩

class Facts : Prop where
  bcast_S_S16x900x80 : S_.BroadcastsInDim S16x900x80 (![] : Fin 0 → Fin S16x900x80.rank)
  reducesTo_S16x900x80_S_d0_1_2 : S16x900x80.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_

variable [Facts]

def fn_part1 {F : FTy → Type} [FloatOps F] (main_arg3 : IVec S1600 32) (main_v13 : IVec S_ 1) (main_v15 : IVec S1600 1) (main_c_5 : IVec S_ 32) : IVec S_ 1 :=
  let main_v16 : IVec S1600 32 := broadcastInDim S1600 ![] bcast_S_S1600 main_c_5
  let main_v17 : IVec S1600 1 := cmpi .slt main_arg3 main_v16
  let main_v18 : IVec S1600 1 := andi main_v15 main_v17
  let main_c_6 : IVec S_ 1 := constantI S_ 1 1#1
  let main_v19 : IVec S_ 1 := (fun x v => Host.reduce IntOp.andi x v reducesTo_S1600_S_d0 h_S_) main_v18 main_c_6
  let main_v20 : IVec S_ 1 := andi main_v13 main_v19
  main_v20

def fn {F : FTy → Type} [FloatOps F] (main_arg0 : FVec F S16x900x80 .f32) (main_arg1 : FVec F S16x900x4 .f32) (main_arg2 : FVec F S1600x4 .f32) (main_arg3 : IVec S1600 32) : IVec S_ 1 :=
  let main_v0 : FVec F S16x900x80 .f32 := Host.absf main_arg0
  let main_cst : FVec F S_ .f32 := constant S_ .f32 0x7F800000#32
  let main_v1 : FVec F S16x900x80 .f32 := broadcastInDim S16x900x80 ![] bcast_S_S16x900x80 main_cst
  let main_v2 : IVec S16x900x80 1 := cmpf .olt main_v0 main_v1
  let main_c : IVec S_ 1 := constantI S_ 1 1#1
  let main_v3 : IVec S_ 1 := (fun x v => Host.reduce IntOp.andi x v reducesTo_S16x900x80_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg2
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg3 main_v14
  let main_c_5 : IVec S_ 32 := constantI S_ 32 80#32
  fn_part1 (F := F) main_arg3 main_v13 main_v15 main_c_5
-- ==== Kernel.lean ====
abbrev S16x900x80 : Shape := ⟨3, ![16, 900, 80]⟩
abbrev S16x900x4 : Shape := ⟨3, ![16, 900, 4]⟩
abbrev S1600x4 : Shape := ⟨2, ![1600, 4]⟩
abbrev S1600 : Shape := ⟨1, ![1600]⟩
abbrev S14400x80 : Shape := ⟨2, ![14400, 80]⟩
abbrev S14400x4 : Shape := ⟨2, ![14400, 4]⟩
abbrev S1600x1 : Shape := ⟨2, ![1600, 1]⟩
abbrev S_ : Shape := ⟨0, ![]⟩
abbrev S4x1600 : Shape := ⟨2, ![4, 1600]⟩
abbrev S80 : Shape := ⟨1, ![80]⟩
abbrev S80x1 : Shape := ⟨2, ![80, 1]⟩
abbrev S1x1600 : Shape := ⟨2, ![1, 1600]⟩
abbrev S80x1600 : Shape := ⟨2, ![80, 1600]⟩
abbrev S14400x1600 : Shape := ⟨2, ![14400, 1600]⟩
abbrev S480x80 : Shape := ⟨2, ![480, 80]⟩
abbrev S480x4 : Shape := ⟨2, ![480, 4]⟩
abbrev S480x1600 : Shape := ⟨2, ![480, 1600]⟩
abbrev S480x1 : Shape := ⟨2, ![480, 1]⟩
abbrev S16x900x1600 : Shape := ⟨3, ![16, 900, 1600]⟩

abbrev nBuf : Space → Nat
  | .hbm => 32
  | .vmem => 9
  | .smem => 0
  | _ => 0

abbrev bufTy : (tb : Table) → Fin (tcTables nBuf tb) → BufTy
  | .hbm, ⟨0, _⟩ => ⟨S16x900x80, .f32⟩
  | .hbm, ⟨1, _⟩ => ⟨S16x900x4, .f32⟩
  | .hbm, ⟨2, _⟩ => ⟨S1600x4, .f32⟩
  | .hbm, ⟨3, _⟩ => ⟨S1600, .i32⟩
  | .hbm, ⟨4, _⟩ => ⟨S14400x80, .f32⟩
  | .hbm, ⟨5, _⟩ => ⟨S14400x4, .f32⟩
  | .hbm, ⟨6, _⟩ => ⟨S1600x1, .f32⟩
  | .hbm, ⟨7, _⟩ => ⟨S1600x1, .f32⟩
  | .hbm, ⟨8, _⟩ => ⟨S1600x1, .f32⟩
  | .hbm, ⟨9, _⟩ => ⟨S1600x1, .f32⟩
  | .hbm, ⟨10, _⟩ => ⟨S1600x1, .f32⟩
  | .hbm, ⟨11, _⟩ => ⟨S_, .f32⟩
  | .hbm, ⟨12, _⟩ => ⟨S1600x1, .f32⟩
  | .hbm, ⟨13, _⟩ => ⟨S1600x1, .f32⟩
  | .hbm, ⟨14, _⟩ => ⟨S1600x1, .f32⟩
  | .hbm, ⟨15, _⟩ => ⟨S_, .f32⟩
  | .hbm, ⟨16, _⟩ => ⟨S1600x1, .f32⟩
  | .hbm, ⟨17, _⟩ => ⟨S1600x1, .f32⟩
  | .hbm, ⟨18, _⟩ => ⟨S1600x1, .f32⟩
  | .hbm, ⟨19, _⟩ => ⟨S1600x1, .f32⟩
  | .hbm, ⟨20, _⟩ => ⟨S1600x4, .f32⟩
  | .hbm, ⟨21, _⟩ => ⟨S4x1600, .f32⟩
  | .hbm, ⟨22, _⟩ => ⟨S4x1600, .f32⟩
  | .hbm, ⟨23, _⟩ => ⟨S80, .i32⟩
  | .hbm, ⟨24, _⟩ => ⟨S80x1, .i32⟩
  | .hbm, ⟨25, _⟩ => ⟨S1x1600, .i32⟩
  | .hbm, ⟨26, _⟩ => ⟨S80x1600, .i32⟩
  | .hbm, ⟨27, _⟩ => ⟨S80x1600, .i32⟩
  | .hbm, ⟨28, _⟩ => ⟨S80x1600, .i1⟩
  | .hbm, ⟨29, _⟩ => ⟨S80x1600, .bf16⟩
  | .hbm, ⟨30, _⟩ => ⟨S14400x1600, .f32⟩
  | .hbm, ⟨31, _⟩ => ⟨S16x900x1600, .f32⟩
  | .local _ .vmem, ⟨0, _⟩ => ⟨S480x80, .f32⟩
  | .local _ .vmem, ⟨1, _⟩ => ⟨S480x80, .f32⟩
  | .local _ .vmem, ⟨2, _⟩ => ⟨S480x4, .f32⟩
  | .local _ .vmem, ⟨3, _⟩ => ⟨S480x4, .f32⟩
  | .local _ .vmem, ⟨4, _⟩ => ⟨S4x1600, .f32⟩
  | .local _ .vmem, ⟨5, _⟩ => ⟨S4x1600, .f32⟩
  | .local _ .vmem, ⟨6, _⟩ => ⟨S80x1600, .bf16⟩
  | .local _ .vmem, ⟨7, _⟩ => ⟨S480x1600, .f32⟩
  | .local _ .vmem, ⟨8, _⟩ => ⟨S480x1600, .f32⟩
  | _, _ => ⟨S16x900x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x1600 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S480x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x900x80_S14400x80 : S16x900x80.ShapeCasts S14400x80
  shapeCasts_S16x900x4_S14400x4 : S16x900x4.ShapeCasts S14400x4
  slices_S1600x4_S1600x1_0_0 : S1600x4.Slices ![0, 0] S1600x1
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600x1 : S_.BroadcastsInDim S1600x1 (![] : Fin 0 → Fin S1600x1.rank)
  concatenates_S1600x1_S1600x1_S1600x1_S1600x1_S1600x4_d1 : Shape.Concatenates [S1600x1, S1600x1, S1600x1, S1600x1] S1600x4 1
  transposes_S1600x4_S4x1600_1_0 : S1600x4.Transposes [1, 0] S4x1600
  bcast_S80_S80x1_0 : S80.BroadcastsInDim S80x1 (![0] : Fin 1 → Fin S80x1.rank)
  bcast_S1600_S1x1600_1 : S1600.BroadcastsInDim S1x1600 (![1] : Fin 1 → Fin S1x1600.rank)
  bcast_S80x1_S80x1600_0_1 : S80x1.BroadcastsInDim S80x1600 (![0, 1] : Fin 2 → Fin S80x1600.rank)
  bcast_S1x1600_S80x1600_0_1 : S1x1600.BroadcastsInDim S80x1600 (![0, 1] : Fin 2 → Fin S80x1600.rank)
  inb_S480x4_S480x4_0_0 : ∀ a, (![0, 0] : Fin 2 → Nat) a + S480x4.size a ≤ S480x4.size a
  h_S480x4 : 0 < S480x4.numel
  shapeCasts_S480x4_S480x4 : S480x4.ShapeCasts S480x4
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  inb_S4x1600_S4x1600_0_0 : ∀ a, (![0, 0] : Fin 2 → Nat) a + S4x1600.size a ≤ S4x1600.size a
  h_S4x1600 : 0 < S4x1600.numel
  shapeCasts_S4x1600_S4x1600 : S4x1600.ShapeCasts S4x1600
  slices_S4x1600_o0_0_S1x1600 : S4x1600.Slices ![0, 0] S1x1600
  slices_S4x1600_o1_0_S1x1600 : S4x1600.Slices ![1, 0] S1x1600
  slices_S4x1600_o2_0_S1x1600 : S4x1600.Slices ![2, 0] S1x1600
  slices_S4x1600_o3_0_S1x1600 : S4x1600.Slices ![3, 0] S1x1600
  broadcasts_S480x1_S480x1600 : S480x1.Broadcasts S480x1600
  broadcasts_S1x1600_S480x1600 : S1x1600.Broadcasts S480x1600
  inb_S480x1600_S480x1600_0_0 : ∀ a, (![0, 0] : Fin 2 → Nat) a + S480x1600.size a ≤ S480x1600.size a
  h_S480x1600 : 0 < S480x1600.numel
  inb_S480x80_S480x80_0_0 : ∀ a, (![0, 0] : Fin 2 → Nat) a + S480x80.size a ≤ S480x80.size a
  h_S480x80 : 0 < S480x80.numel
  shapeCasts_S480x80_S480x80 : S480x80.ShapeCasts S480x80
  bitsLt_bf16_f32 : FTy.bits .bf16 < FTy.bits .f32
  inb_S80x1600_S80x1600_0_0 : ∀ a, (![0, 0] : Fin 2 → Nat) a + S80x1600.size a ≤ S80x1600.size a
  h_S80x1600 : 0 < S80x1600.numel
  shapeCasts_S80x1600_S80x1600 : S80x1600.ShapeCasts S80x1600
  shapeCasts_S480x1600_S480x1600 : S480x1600.ShapeCasts S480x1600
  shapeCasts_S14400x1600_S16x900x1600 : S14400x1600.ShapeCasts S16x900x1600
  dot_S480x80_S80x1600_S480x1600_1_0_0_1_n_n_wf : DotDims.WF S480x80 S80x1600 S480x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x80.size a ≤ S14400x80.size a
  hwx0_0 : ∀ i : grid0.Coords, EltTy.bits .f32 = 32 ∨ (Rect.block (s := S14400x80) S480x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S14400x4.size a
  hwx0_1 : ∀ i : grid0.Coords, EltTy.bits .f32 = 32 ∨ (Rect.block (s := S14400x4) S480x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1600.size a ≤ S4x1600.size a
  hwx0_2 : ∀ i : grid0.Coords, EltTy.bits .f32 = 32 ∨ (Rect.block (s := S4x1600) S4x1600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1600.size a ≤ S4x1600.size a
  hwx0_3 : ∀ i : grid0.Coords, EltTy.bits .f32 = 32 ∨ (Rect.block (s := S4x1600) S4x1600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S80x1600.size a ≤ S80x1600.size a
  hwx0_4 : ∀ i : grid0.Coords, EltTy.bits .bf16 = 32 ∨ (Rect.block (s := S80x1600) S80x1600.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S480x1600.size a ≤ S14400x1600.size a
  hwx0_5 : ∀ i : grid0.Coords, EltTy.bits .f32 = 32 ∨ (Rect.block (s := S14400x1600) S480x1600.size (cc0_transform_5 i) (hinb0_5 i)).WholeWords (EltTy.packing .f32)

variable [Facts₀]

def dot_S480x80_S80x1600_S480x1600_1_0_0_1_n_n : DotDims S480x80 S80x1600 S480x1600 where
  lhsContracting := [1]
  rhsContracting := [0]
  lhsNonContracting := [0]
  rhsNonContracting := [1]
  lhsBatch := []
  rhsBatch := []
  wf := dot_S480x80_S80x1600_S480x1600_1_0_0_1_n_n_wf

abbrev win0_0 : Pipeline.Window sig grid0 :=
  Pipeline.Window.ofSpec (Memref.whole main_v0) S480x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S80x1600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S480x1600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x900x80 : Shape := ⟨3, ![16, 900, 80]⟩
abbrev S16x900x4 : Shape := ⟨3, ![16, 900, 4]⟩
abbrev S1600x4 : Shape := ⟨2, ![1600, 4]⟩
abbrev S1600 : Shape := ⟨1, ![1600]⟩
abbrev S14400x80 : Shape := ⟨2, ![14400, 80]⟩
abbrev S_ : Shape := ⟨0, ![]⟩
abbrev S14400x4 : Shape := ⟨2, ![14400, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x1 : Shape := ⟨2, ![14400, 1]⟩
abbrev S14400 : Shape := ⟨1, ![14400]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 191
  | .vmem => 0
  | .smem => 0
  | _ => 0

abbrev hbmTy0_0 (i : Nat) : BufTy := match i % 128 with
  | 0 => ⟨S16x900x80, .f32⟩
  | 1 => ⟨S16x900x4, .f32⟩
  | 2 => ⟨S1600x4, .f32⟩
  | 3 => ⟨S1600, .i32⟩
  | 4 => ⟨S14400x80, .f32⟩
  | 5 => ⟨S14400x80, .f32⟩
  | 6 => ⟨S14400x80, .f32⟩
  | 7 => ⟨S_, .f32⟩
  | 8 => ⟨S14400x80, .f32⟩
  | 9 => ⟨S14400x80, .f32⟩
  | 10 => ⟨S_, .f32⟩
  | 11 => ⟨S14400x80, .f32⟩
  | 12 => ⟨S14400x80, .f32⟩
  | 13 => ⟨S14400x4, .f32⟩
  | 14 => ⟨S_, .f32⟩
  | 15 => ⟨S14400x80, .f32⟩
  | 16 => ⟨S14400x80, .f32⟩
  | 17 => ⟨S_, .f32⟩
  | 18 => ⟨S14400x80, .f32⟩
  | 19 => ⟨S14400x80, .f32⟩
  | 20 => ⟨S_, .f32⟩
  | 21 => ⟨S14400x80, .f32⟩
  | 22 => ⟨S14400x80, .f32⟩
  | 23 => ⟨S_, .f32⟩
  | 24 => ⟨S14400x80, .f32⟩
  | 25 => ⟨S14400x80, .f32⟩
  | 26 => ⟨S14400x80, .f32⟩
  | 27 => ⟨S14400x80, .f32⟩
  | 28 => ⟨S14400x80, .f32⟩
  | 29 => ⟨S_, .f32⟩
  | 30 => ⟨S14400x80, .f32⟩
  | 31 => ⟨S14400x80, .f32⟩
  | 32 => ⟨S_, .f32⟩
  | 33 => ⟨S14400x80, .f32⟩
  | 34 => ⟨S14400x80, .f32⟩
  | 35 => ⟨S_, .f32⟩
  | 36 => ⟨S14400x80, .f32⟩
  | 37 => ⟨S14400x80, .f32⟩
  | 38 => ⟨S_, .f32⟩
  | 39 => ⟨S14400x80, .f32⟩
  | 40 => ⟨S14400x80, .f32⟩
  | 41 => ⟨S14400x80, .f32⟩
  | 42 => ⟨S14400x80, .f32⟩
  | 43 => ⟨S14400x80, .f32⟩
  | 44 => ⟨S14400x80, .f32⟩
  | 45 => ⟨S_, .i32⟩
  | 46 => ⟨S1600, .i32⟩
  | 47 => ⟨S1600, .i1⟩
  | 48 => ⟨S_, .i32⟩
  | 49 => ⟨S1600, .i32⟩
  | 50 => ⟨S1600, .i32⟩
  | 51 => ⟨S1600, .i32⟩
  | 52 => ⟨S1600x1, .i32⟩
  | 53 => ⟨S14400x1600, .f32⟩
  | 54 => ⟨S1600x1, .f32⟩
  | 55 => ⟨S1600x1, .f32⟩
  | 56 => ⟨S1600x1, .f32⟩
  | 57 => ⟨S1600x1, .f32⟩
  | 58 => ⟨S1600x1, .f32⟩
  | 59 => ⟨S_, .f32⟩
  | 60 => ⟨S1600x1, .f32⟩
  | 61 => ⟨S1600x1, .f32⟩
  | 62 => ⟨S1600x1, .f32⟩
  | 63 => ⟨S_, .f32⟩
  | 64 => ⟨S1600x1, .f32⟩
  | 65 => ⟨S1600x1, .f32⟩
  | 66 => ⟨S1600x1, .f32⟩
  | 67 => ⟨S1600x1, .f32⟩
  | 68 => ⟨S1600x4, .f32⟩
  | 69 => ⟨S14400x1x4, .f32⟩
  | 70 => ⟨S1x1600x4, .f32⟩
  | 71 => ⟨S14400x1600x4, .f32⟩
  | 72 => ⟨S14400x1600x4, .f32⟩
  | 73 => ⟨S14400x1600x4, .f32⟩
  | 74 => ⟨S14400x1600x4, .f32⟩
  | 75 => ⟨S_, .f32⟩
  | 76 => ⟨S14400x1600, .f32⟩
  | 77 => ⟨S14400x1, .f32⟩
  | 78 => ⟨S14400x1, .f32⟩
  | 79 => ⟨S14400x1, .f32⟩
  | 80 => ⟨S14400x1, .f32⟩
  | 81 => ⟨S_, .f32⟩
  | 82 => ⟨S14400x1, .f32⟩
  | 83 => ⟨S14400x1, .f32⟩
  | 84 => ⟨S14400x1, .f32⟩
  | 85 => ⟨S_, .f32⟩
  | 86 => ⟨S14400x1, .f32⟩
  | 87 => ⟨S14400x1, .f32⟩
  | 88 => ⟨S14400x1, .f32⟩
  | 89 => ⟨S_, .f32⟩
  | 90 => ⟨S14400x1, .f32⟩
  | 91 => ⟨S14400x1, .f32⟩
  | 92 => ⟨S14400x1, .f32⟩
  | 93 => ⟨S_, .f32⟩
  | 94 => ⟨S14400x1, .f32⟩
  | 95 => ⟨S14400x1, .f32⟩
  | 96 => ⟨S14400x1, .f32⟩
  | 97 => ⟨S14400x4, .f32⟩
  | 98 => ⟨S14400x1, .f32⟩
  | 99 => ⟨S14400, .f32⟩
  | 100 => ⟨S14400x1, .f32⟩
  | 101 => ⟨S14400, .f32⟩
  | 102 => ⟨S14400, .f32⟩
  | 103 => ⟨S14400x1, .f32⟩
  | 104 => ⟨S14400, .f32⟩
  | 105 => ⟨S14400x1, .f32⟩
  | 106 => ⟨S14400, .f32⟩
  | 107 => ⟨S14400, .f32⟩
  | 108 => ⟨S14400, .f32⟩
  | 109 => ⟨S1600x1, .f32⟩
  | 110 => ⟨S1600, .f32⟩
  | 111 => ⟨S1600x1, .f32⟩
  | 112 => ⟨S1600, .f32⟩
  | 113 => ⟨S1600, .f32⟩
  | 114 => ⟨S1600x1, .f32⟩
  | 115 => ⟨S1600, .f32⟩
  | 116 => ⟨S1600x1, .f32⟩
  | 117 => ⟨S1600, .f32⟩
  | 118 => ⟨S1600, .f32⟩
  | 119 => ⟨S1600, .f32⟩
  | 120 => ⟨S14400x2, .f32⟩
  | 121 => ⟨S14400x1x2, .f32⟩
  | 122 => ⟨S1600x2, .f32⟩
  | 123 => ⟨S1x1600x2, .f32⟩
  | 124 => ⟨S14400x1600x2, .f32⟩
  | 125 => ⟨S14400x1600x2, .f32⟩
  | 126 => ⟨S14400x1600x2, .f32⟩
  | 127 => ⟨S14400x2, .f32⟩
  | _ => ⟨S16x900x80, .f32⟩

abbrev hbmTy0_1 (i : Nat) : BufTy := match i % 128 with
  | 0 => ⟨S14400x1x2, .f32⟩
  | 1 => ⟨S1600x2, .f32⟩
  | 2 => ⟨S1x1600x2, .f32⟩
  | 3 => ⟨S14400x1600x2, .f32⟩
  | 4 => ⟨S14400x1600x2, .f32⟩
  | 5 => ⟨S14400x1600x2, .f32⟩
  | 6 => ⟨S14400x1600x2, .f32⟩
  | 7 => ⟨S_, .f32⟩
  | 8 => ⟨S_, .f32⟩
  | 9 => ⟨S14400x1600x2, .f32⟩
  | 10 => ⟨S14400x1600x2, .f32⟩
  | 11 => ⟨S14400x1600x1, .f32⟩
  | 12 => ⟨S14400x1600, .f32⟩
  | 13 => ⟨S14400x1600x1, .f32⟩
  | 14 => ⟨S14400x1600, .f32⟩
  | 15 => ⟨S14400x1600, .f32⟩
  | 16 => ⟨S14400x1, .f32⟩
  | 17 => ⟨S1x1600, .f32⟩
  | 18 => ⟨S14400x1600, .f32⟩
  | 19 => ⟨S14400x1600, .f32⟩
  | 20 => ⟨S14400x1600, .f32⟩
  | 21 => ⟨S14400x1600, .f32⟩
  | 22 => ⟨S14400x1600, .f32⟩
  | 23 => ⟨S14400x2, .f32⟩
  | 24 => ⟨S14400x1x2, .f32⟩
  | 25 => ⟨S1600x2, .f32⟩
  | 26 => ⟨S1x1600x2, .f32⟩
  | 27 => ⟨S14400x1600x2, .f32⟩
  | 28 => ⟨S14400x1600x2, .f32⟩
  | 29 => ⟨S14400x1600x2, .f32⟩
  | 30 => ⟨S14400x2, .f32⟩
  | 31 => ⟨S14400x1x2, .f32⟩
  | 32 => ⟨S1600x2, .f32⟩
  | 33 => ⟨S1x1600x2, .f32⟩
  | 34 => ⟨S14400x1600x2, .f32⟩
  | 35 => ⟨S14400x1600x2, .f32⟩
  | 36 => ⟨S14400x1600x2, .f32⟩
  | 37 => ⟨S14400x1600x2, .f32⟩
  | 38 => ⟨S_, .f32⟩
  | 39 => ⟨S_, .f32⟩
  | 40 => ⟨S14400x1600x2, .f32⟩
  | 41 => ⟨S14400x1600x2, .f32⟩
  | 42 => ⟨S14400x1600x1, .f32⟩
  | 43 => ⟨S14400x1600, .f32⟩
  | 44 => ⟨S14400x1600x1, .f32⟩
  | 45 => ⟨S14400x1600, .f32⟩
  | 46 => ⟨S14400x1600, .f32⟩
  | 47 => ⟨S14400x1600, .f32⟩
  | 48 => ⟨S14400x1600, .f32⟩
  | 49 => ⟨S14400x1600, .f32⟩
  | 50 => ⟨S14400x1600, .f32⟩
  | 51 => ⟨S_, .f32⟩
  | 52 => ⟨S14400x1600, .f32⟩
  | 53 => ⟨S14400x1600, .f32⟩
  | 54 => ⟨S_, .f32⟩
  | 55 => ⟨S14400x1600, .f32⟩
  | 56 => ⟨S14400x1600, .f32⟩
  | 57 => ⟨S14400x1600, .f32⟩
  | 58 => ⟨S_, .f32⟩
  | 59 => ⟨S14400x1600, .f32⟩
  | 60 => ⟨S14400x1600, .f32⟩
  | 61 => ⟨S14400x1600, .f32⟩
  | 62 => ⟨S16x900x1600, .f32⟩
  | _ => ⟨S16x900x80, .f32⟩

abbrev hbmTy (i : Nat) : BufTy := match i / 128 with
  | 0 => hbmTy0_0 i
  | 1 => hbmTy0_1 i
  | _ => ⟨S16x900x80, .f32⟩

abbrev bufTy : (tb : Table) → Fin (tcTables nBuf tb) → BufTy
  | .hbm, ⟨i, _⟩ => hbmTy i
  | _, _ => ⟨S16x900x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_v31 : Ref sig .tc := ⟨.hbm, 46, rfl⟩
abbrev main_v32 : Ref sig .tc := ⟨.hbm, 47, rfl⟩
abbrev main_c_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_17 : Ref sig .tc := ⟨.hbm, 135, rfl⟩
abbrev main_call0_v0 : Ref sig .tc := ⟨.hbm, 136, rfl⟩
abbrev main_call0_v1 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_cst_18 : Ref sig .tc := ⟨.hbm, 166, rfl⟩
abbrev main_call1_v0 : Ref sig .tc := ⟨.hbm, 167, rfl⟩
abbrev main_call1_v1 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_cst_19 : Ref sig .tc := ⟨.hbm, 179, rfl⟩
abbrev main_v150 : Ref sig .tc := ⟨.hbm, 180, rfl⟩
abbrev main_v151 : Ref sig .tc := ⟨.hbm, 181, rfl⟩
abbrev main_cst_20 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_21 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩

abbrev nD : Nat := 1
abbrev τ : Topo := Topo.v7x

variable {F : FTy → Type} [FloatOps F]

class Facts₀ : Prop where
  shapeCasts_S16x900x80_S14400x80 : S16x900x80.ShapeCasts S14400x80
  bcast_S_S14400x80 : S_.BroadcastsInDim S14400x80 (![] : Fin 0 → Fin S14400x80.rank)
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  slices_S1600x4_S1600x1_0_0 : S1600x4.Slices ![0, 0] S1600x1
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600x1 : S_.BroadcastsInDim S1600x1 (![] : Fin 0 → Fin S1600x1.rank)
  concatenates_S1600x1_S1600x1_S1600x1_S1600x1_S1600x4_d1 : Shape.Concatenates [S1600x1, S1600x1, S1600x1, S1600x1] S1600x4 1
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  h_S_ : 0 < S_.numel
  slices_S14400x4_S14400x1_0_0 : S14400x4.Slices ![0, 0] S14400x1
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400x1 : S_.BroadcastsInDim S14400x1 (![] : Fin 0 → Fin S14400x1.rank)
  concatenates_S14400x1_S14400x1_S14400x1_S14400x1_S14400x4_d1 : Shape.Concatenates [S14400x1, S14400x1, S14400x1, S14400x1] S14400x4 1
  shapeCasts_S14400x1_S14400 : S14400x1.ShapeCasts S14400
  shapeCasts_S1600x1_S1600 : S1600x1.ShapeCasts S1600
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S14400_S14400x1_0 : S14400.BroadcastsInDim S14400x1 (![0] : Fin 1 → Fin S14400x1.rank)
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  gather_S14400x80_S1600x1_S14400x1600_0_1_n_n_1_1_144001_wf : GatherDims.WF S14400x80 S1600x1 S14400x1600 [0] [1] [] [1] [] 1 ![14400, 1]

variable [Facts₀]

def gather_S14400x80_S1600x1_S14400x1600_0_1_n_n_1_1_144001 : GatherDims S14400x80 S1600x1 S14400x1600 where
  offsetDims := [0]
  collapsedSliceDims := [1]
  operandBatchingDims := []
  startIndicesBatchingDims := []
  startIndexMap := [1]
  indexVectorDim := 1
  sliceSizes := ![14400, 1]
  wf := gather_S14400x80_S1600x1_S14400x1600_0_1_n_n_1_1_144001_wf

class Facts : Prop extends Facts₀ where

variable [Facts]
-- ==== Proof.FrameRunB.lean ====
/-
  The cost-matrix program, read at the word level, runs to the end without a fault and leaves its four argument arrays as they were,
  and its result array is named.

  The program is: a line of host operations (the two row-major flattenings of the predictions; the targets'
  centre/size form, joined column by column and transposed; the targets' corner form transposed; the class one-hot
  table), one pipelined region over 30 row blocks of 480 queries, and one host reshape of the region's result.
  At a grid point the body stores its whole output block three times, each store after the first computed from a
  load of the block just stored; so the block it leaves is one function of the five input blocks — the pieces the
  symbolic run of the body ends with (its last store covers the block).  The inputs' staging buffers hold their
  blocks at every point, fetched there or not: the three tables are fetched once and never written.

  The proof data of the pipeline names, for each input window, its block of the array as the region finds it, and for
  the output window the block the body's run leaves; the invariant is the class's (nothing of the kernel's own).
  The run around the region gives every array of the pipeline at what the write-backs leave and every other buffer at
  what the last host line leaves; no host line writes an argument, and no window stages one, so the arguments end
  as launched.
-/
import proofs.«419403_j7387343749451_2_alg».proof.Proof.Gen.Kernel.Launch
import proofs.«419403_j7387343749451_2_alg».proof.Proof.Gen.Kernel.Skeleton
import proofs.«419403_j7387343749451_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: the launch contents after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host lines, the region, its last host line: it reduces to the region continued by that line,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only the pipeline's arrays and buffers that bypass the region, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run to the library's post around the region, read
    at the four argument arrays — none is a window's array, so each is a bypassing buffer, which no host line writes —
    is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body on any staging memrefs -/

/-- One staging buffer of the output window, through which its contents are stated (the choice does not matter). -/
abbrev VO0_5 : View sig .tc .vmem S480x1600 .f32 := (Memref.whole cc0_stg5_0 : Memref sig .tc .vmem S480x1600 .f32).view
/-- Each window's current staging memref at point `t`, as the pipeline passes it to the body, and its wholeness. -/
abbrev ms0_0 (t : Fin cfg0.N) : Memref sig .tc .vmem S480x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S480x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1600 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1600 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S80x1600 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S480x1600 .f32 := win0_5.stage (cfg0.slots t 5)
abbrev hs0_5 (t : Fin cfg0.N) : (ms0_5 t).IsWhole := hstage0_5 ((cfg0.slots t 5).cast nbuf0_5)

set_option maxHeartbeats 4000000 in
/-- What the body's stores leave in the output's staging memref, as pieces (last first), with the proof that on whole
    staging memrefs — the inputs' at their contents, the output's at anything — the body runs to the continuation
    holding the inputs' as they were and the output's buffer with the pieces written.  The pieces are what the
    symbolic run of the body's skeleton finds. -/
noncomputable def kernelRun0_A (c : Dev nD) (i : grid0.Coords) (arg1 : Memref sig .tc .vmem S480x80 .f32) (harg1 : arg1.IsWhole) (arg2 : Memref sig .tc .vmem S480x4 .f32) (harg2 : arg2.IsWhole) (arg3 : Memref sig .tc .vmem S4x1600 .f32) (harg3 : arg3.IsWhole) (arg4 : Memref sig .tc .vmem S4x1600 .f32) (harg4 : arg4.IsWhole) (arg5 : Memref sig .tc .vmem S80x1600 .bf16) (harg5 : arg5.IsWhole) (arg6 : Memref sig .tc .vmem S480x1600 .f32) (harg6 : arg6.IsWhole)
    (x0 : Vec F S480x80 .f32) (x1 : Vec F S480x4 .f32) (x2 : Vec F S4x1600 .f32) (x3 : Vec F S4x1600 .f32) (x4 : Vec F S80x1600 .bf16) :
    { L5 : List (View.Piece (Elt F) S480x1600 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__cost_kernel i arg1 harg1 arg2 harg2 arg3 harg3 arg4 harg4 arg5 harg5 arg6 harg6) K } := by
  refine ⟨?_, fun E K => ?run⟩
  case run =>
    simp only [cc0__cost_kernel_eq_skeleton]; unfold cc0__cost_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Fr

end
-- ==== Proof.FrameB.lean ====
/-
  The second half of the word-level program's frame: the block the body leaves in the output window, the pipeline's
  proof data, the body obligation at a generic grid point, the run around the region and the frame claim's post.

  The body's run ends with a list of pieces for the output block (its stores, last first); they tile the block, so
  read back over anything they give one block: `out0_A_5`.  At point `t` the proof data says each input window's buffer
  holds its block and the output's holds `out0_A_5` of the five input blocks.  Nothing is carried between points.
-/
import proofs.«419403_j7387343749451_2_alg».proof.Proof.FrameRunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block (whole-block stores), so they cover it. -/
theorem cover0_A_5 (c : Dev nD) (i : grid0.Coords) (arg1 : Memref sig .tc .vmem S480x80 .f32) (harg1 : arg1.IsWhole) (arg2 : Memref sig .tc .vmem S480x4 .f32) (harg2 : arg2.IsWhole) (arg3 : Memref sig .tc .vmem S4x1600 .f32) (harg3 : arg3.IsWhole) (arg4 : Memref sig .tc .vmem S4x1600 .f32) (harg4 : arg4.IsWhole) (arg5 : Memref sig .tc .vmem S80x1600 .bf16) (harg5 : arg5.IsWhole) (arg6 : Memref sig .tc .vmem S480x1600 .f32) (harg6 : arg6.IsWhole)
    (x0 : Vec F S480x80 .f32) (x1 : Vec F S480x4 .f32) (x2 : Vec F S4x1600 .f32) (x3 : Vec F S4x1600 .f32) (x4 : Vec F S80x1600 .bf16) (y : S480x1600.Idx) :
    ∃ pc ∈ (kernelRun0_A c i arg1 harg1 arg2 harg2 arg3 harg3 arg4 harg4 arg5 harg5 arg6 harg6 x0 x1 x2 x3 x4).1, y ∈ pc.1.set :=
  View.cover_of_tiledL (kernelRun0_A c i arg1 harg1 arg2 harg2 arg3 harg3 arg4 harg4 arg5 harg5 arg6 harg6 x0 x1 x2 x3 x4).1 S480x1600.size (by sl_kernel_rfl) y

/-- What the run leaves in the output's staging buffer: its pieces read back over anything. -/
def out0_A_5 (c : Dev nD) (i : grid0.Coords) (arg1 : Memref sig .tc .vmem S480x80 .f32) (harg1 : arg1.IsWhole) (arg2 : Memref sig .tc .vmem S480x4 .f32) (harg2 : arg2.IsWhole) (arg3 : Memref sig .tc .vmem S4x1600 .f32) (harg3 : arg3.IsWhole) (arg4 : Memref sig .tc .vmem S4x1600 .f32) (harg4 : arg4.IsWhole) (arg5 : Memref sig .tc .vmem S80x1600 .bf16) (harg5 : arg5.IsWhole) (arg6 : Memref sig .tc .vmem S480x1600 .f32) (harg6 : arg6.IsWhole)
    (x0 : Vec F S480x80 .f32) (x1 : Vec F S480x4 .f32) (x2 : Vec F S4x1600 .f32) (x3 : Vec F S4x1600 .f32) (x4 : Vec F S80x1600 .bf16) : Vec F S480x1600 .f32 :=
  VO0_5.read (Elt F) (VO0_5.writes (Elt F) VO0_5.junk (kernelRun0_A c i arg1 harg1 arg2 harg2 arg3 harg3 arg4 harg4 arg5 harg5 arg6 harg6 x0 x1 x2 x3 x4).1)

/-- What the output's staging buffer holds after the body at point `t`: the run's block at the point's memrefs and
    input blocks. -/
def outsAt0 (c : Dev nD) (t : Fin cfg0.N) : Vec F S480x1600 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)

/-! ## The pipeline's proof data -/

/-- On core `c`: the arrays as the region finds them; after the body at point `t` each input's buffer at its block and
    the output's at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of the program terminates, and every final state
    has every array of the pipeline at what the write-backs leave and every other unscoped buffer as the last host
    line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.FrameRunI.lean ====
/-
  The idealized cost-matrix program runs to the end without a fault and leaves its four argument arrays as they were,
  and its result array is named.

  The program is: a line of host operations (the two row-major flattenings of the predictions; the targets'
  centre/size form, joined column by column and transposed; the targets' corner form transposed; the class one-hot
  table), one pipelined region over 30 row blocks of 480 queries, and one host reshape of the region's result.
  At a grid point the body stores its whole output block three times, each store after the first computed from a
  load of the block just stored; so the block it leaves is one function of the five input blocks — the pieces the
  symbolic run of the body ends with (its last store covers the block).  The inputs' staging buffers hold their
  blocks at every point, fetched there or not: the three tables are fetched once and never written.

  The proof data of the pipeline names, for each input window, its block of the array as the region finds it, and for
  the output window the block the body's run leaves; the invariant is the class's (nothing of the kernel's own).
  The run around the region gives every array of the pipeline at what the write-backs leave and every other buffer at
  what the last host line leaves; no host line writes an argument, and no window stages one, so the arguments end
  as launched.
-/
import proofs.«419403_j7387343749451_2_alg».proof.Proof.Gen.KernelIdeal.Launch
import proofs.«419403_j7387343749451_2_alg».proof.Proof.Gen.KernelIdeal.Skeleton
import proofs.«419403_j7387343749451_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The buffers' contents when the region is entered: the launch contents after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its host lines, the region, its last host line: it reduces to the region continued by that line,
    entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only the pipeline's arrays and buffers that bypass the region, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes no array of the pipeline (it writes the reshaped result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.nary_writes, StableHlo.binaryIndexed_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
    repeat' apply And.intro
    all_goals exact StableHlo.devRef_ne_of_ne (by decide)))

/-- Nor does the line after it: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run to the library's post around the region, read
    at the four argument arrays — none is a window's array, so each is a bypassing buffer, which no host line writes —
    is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body on any staging memrefs -/

/-- One staging buffer of the output window, through which its contents are stated (the choice does not matter). -/
abbrev VO0_5 : View sig .tc .vmem S480x1600 .f32 := (Memref.whole cc0_stg5_0 : Memref sig .tc .vmem S480x1600 .f32).view
/-- Each window's current staging memref at point `t`, as the pipeline passes it to the body, and its wholeness. -/
abbrev ms0_0 (t : Fin cfg0.N) : Memref sig .tc .vmem S480x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S480x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1600 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x1600 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S80x1600 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S480x1600 .f32 := win0_5.stage (cfg0.slots t 5)
abbrev hs0_5 (t : Fin cfg0.N) : (ms0_5 t).IsWhole := hstage0_5 ((cfg0.slots t 5).cast nbuf0_5)

set_option maxHeartbeats 4000000 in
/-- What the body's stores leave in the output's staging memref, as pieces (last first), with the proof that on whole
    staging memrefs — the inputs' at their contents, the output's at anything — the body runs to the continuation
    holding the inputs' as they were and the output's buffer with the pieces written.  The pieces are what the
    symbolic run of the body's skeleton finds. -/
noncomputable def kernelRun0_A (c : Dev nD) (i : grid0.Coords) (arg1 : Memref sig .tc .vmem S480x80 .f32) (harg1 : arg1.IsWhole) (arg2 : Memref sig .tc .vmem S480x4 .f32) (harg2 : arg2.IsWhole) (arg3 : Memref sig .tc .vmem S4x1600 .f32) (harg3 : arg3.IsWhole) (arg4 : Memref sig .tc .vmem S4x1600 .f32) (harg4 : arg4.IsWhole) (arg5 : Memref sig .tc .vmem S80x1600 .bf16) (harg5 : arg5.IsWhole) (arg6 : Memref sig .tc .vmem S480x1600 .f32) (harg6 : arg6.IsWhole)
    (x0 : Vec F S480x80 .f32) (x1 : Vec F S480x4 .f32) (x2 : Vec F S4x1600 .f32) (x3 : Vec F S4x1600 .f32) (x4 : Vec F S80x1600 .bf16) :
    { L5 : List (View.Piece (Elt F) S480x1600 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc0__cost_kernel i arg1 harg1 arg2 harg2 arg3 harg3 arg4 harg4 arg5 harg5 arg6 harg6) K } := by
  refine ⟨?_, fun E K => ?run⟩
  case run =>
    simp only [cc0__cost_kernel_eq_skeleton]; unfold cc0__cost_kernel_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Fr

end
-- ==== Proof.FrameI.lean ====
/-
  The second half of the idealized program's frame: the block the body leaves in the output window, the pipeline's
  proof data, the body obligation at a generic grid point, the run around the region and the frame claim's post.

  The body's run ends with a list of pieces for the output block (its stores, last first); they tile the block, so
  read back over anything they give one block: `out0_A_5`.  At point `t` the proof data says each input window's buffer
  holds its block and the output's holds `out0_A_5` of the five input blocks.  Nothing is carried between points.
-/
import proofs.«419403_j7387343749451_2_alg».proof.Proof.FrameRunI

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces for the output tile its block (whole-block stores), so they cover it. -/
theorem cover0_A_5 (c : Dev nD) (i : grid0.Coords) (arg1 : Memref sig .tc .vmem S480x80 .f32) (harg1 : arg1.IsWhole) (arg2 : Memref sig .tc .vmem S480x4 .f32) (harg2 : arg2.IsWhole) (arg3 : Memref sig .tc .vmem S4x1600 .f32) (harg3 : arg3.IsWhole) (arg4 : Memref sig .tc .vmem S4x1600 .f32) (harg4 : arg4.IsWhole) (arg5 : Memref sig .tc .vmem S80x1600 .bf16) (harg5 : arg5.IsWhole) (arg6 : Memref sig .tc .vmem S480x1600 .f32) (harg6 : arg6.IsWhole)
    (x0 : Vec F S480x80 .f32) (x1 : Vec F S480x4 .f32) (x2 : Vec F S4x1600 .f32) (x3 : Vec F S4x1600 .f32) (x4 : Vec F S80x1600 .bf16) (y : S480x1600.Idx) :
    ∃ pc ∈ (kernelRun0_A c i arg1 harg1 arg2 harg2 arg3 harg3 arg4 harg4 arg5 harg5 arg6 harg6 x0 x1 x2 x3 x4).1, y ∈ pc.1.set :=
  View.cover_of_tiledL (kernelRun0_A c i arg1 harg1 arg2 harg2 arg3 harg3 arg4 harg4 arg5 harg5 arg6 harg6 x0 x1 x2 x3 x4).1 S480x1600.size (by sl_kernel_rfl) y

/-- What the run leaves in the output's staging buffer: its pieces read back over anything. -/
def out0_A_5 (c : Dev nD) (i : grid0.Coords) (arg1 : Memref sig .tc .vmem S480x80 .f32) (harg1 : arg1.IsWhole) (arg2 : Memref sig .tc .vmem S480x4 .f32) (harg2 : arg2.IsWhole) (arg3 : Memref sig .tc .vmem S4x1600 .f32) (harg3 : arg3.IsWhole) (arg4 : Memref sig .tc .vmem S4x1600 .f32) (harg4 : arg4.IsWhole) (arg5 : Memref sig .tc .vmem S80x1600 .bf16) (harg5 : arg5.IsWhole) (arg6 : Memref sig .tc .vmem S480x1600 .f32) (harg6 : arg6.IsWhole)
    (x0 : Vec F S480x80 .f32) (x1 : Vec F S480x4 .f32) (x2 : Vec F S4x1600 .f32) (x3 : Vec F S4x1600 .f32) (x4 : Vec F S80x1600 .bf16) : Vec F S480x1600 .f32 :=
  VO0_5.read (Elt F) (VO0_5.writes (Elt F) VO0_5.junk (kernelRun0_A c i arg1 harg1 arg2 harg2 arg3 harg3 arg4 harg4 arg5 harg5 arg6 harg6 x0 x1 x2 x3 x4).1)

/-- What the output's staging buffer holds after the body at point `t`: the run's block at the point's memrefs and
    input blocks. -/
def outsAt0 (c : Dev nD) (t : Fin cfg0.N) : Vec F S480x1600 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)

/-! ## The pipeline's proof data -/

/-- On core `c`: the arrays as the region finds them; after the body at point `t` each input's buffer at its block and
    the output's at `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- The body at any point: the inputs' memrefs hold their blocks, so the run applies; the invariant passes through
    unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  unfold outsAt0
  unfold out0_A_5
  iintro ⟨HΦ, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of the program terminates, and every final state
    has every array of the pipeline at what the write-backs leave and every other unscoped buffer as the last host
    line leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.HostVals.lean ====
/-
  The arrays the pipeline's five input windows stage, as the region finds them: each is a host operation's result, a
  term of the argument arrays.  Window 0: the logits flattened to rows.  Window 1: the predicted boxes flattened to
  rows.  Window 2: the targets' corner table transposed.  Window 3: the targets' centre/size form — the four columns
  ((x1 + x2)·½, (y1 + y2)·½, x2 − x1, y2 − y1) joined — transposed.  Window 4: the class one-hot table, the compare of a
  class iota against the labels, converted to a float.
-/
import proofs.«419403_j7387343749451_2_alg».proof.Proof.FrameI
import Idealize.ShloMosaic.Lib.StableHlo.Run

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem V_main_v0 (c : Dev nD) : (V m c main_v0 : S14400x80.Idx → Elt F .f32) = shapeCast S14400x80 (m ((c : Thread nD τ).loc main_arg0)) shapeCasts_S16x900x80_S14400x80 := by
  show StableHlo.after hostOps0 (fun b => m (c, b)) (Proc.devRef .tc main_v0) = _
  after_results
  all_goals rfl

theorem V_main_v1 (c : Dev nD) : (V m c main_v1 : S14400x4.Idx → Elt F .f32) = shapeCast S14400x4 (m ((c : Thread nD τ).loc main_arg1)) shapeCasts_S16x900x4_S14400x4 := by
  show StableHlo.after hostOps0 (fun b => m (c, b)) (Proc.devRef .tc main_v1) = _
  after_results
  all_goals rfl

theorem V_main_v15 (c : Dev nD) : (V m c main_v15 : S4x1600.Idx → Elt F .f32) = transpose S4x1600 [1, 0] (m ((c : Thread nD τ).loc main_arg2)) transposes_S1600x4_S4x1600_1_0 := by
  show StableHlo.after hostOps0 (fun b => m (c, b)) (Proc.devRef .tc main_v15) = _
  after_results
  all_goals rfl

theorem V_main_v16 (c : Dev nD) : (V m c main_v16 : S4x1600.Idx → Elt F .f32) = transpose S4x1600 [1, 0] (concatenate S1600x4 1 [⟨S1600x1, mulf (addf (extractStridedSlice S1600x1 ![0, 0] (m ((c : Thread nD τ).loc main_arg2)) slices_S1600x4_S1600x1_0_0) (extractStridedSlice S1600x1 ![0, 2] (m ((c : Thread nD τ).loc main_arg2)) slices_S1600x4_S1600x1_0_2)) (broadcastInDim S1600x1 ![] bcast_S_S1600x1 (constant (F := F) S_ .f32 0x3F000000#32))⟩, ⟨S1600x1, mulf (addf (extractStridedSlice S1600x1 ![0, 1] (m ((c : Thread nD τ).loc main_arg2)) slices_S1600x4_S1600x1_0_1) (extractStridedSlice S1600x1 ![0, 3] (m ((c : Thread nD τ).loc main_arg2)) slices_S1600x4_S1600x1_0_3)) (broadcastInDim S1600x1 ![] bcast_S_S1600x1 (constant (F := F) S_ .f32 0x3F000000#32))⟩, ⟨S1600x1, subf (extractStridedSlice S1600x1 ![0, 2] (m ((c : Thread nD τ).loc main_arg2)) slices_S1600x4_S1600x1_0_2) (extractStridedSlice S1600x1 ![0, 0] (m ((c : Thread nD τ).loc main_arg2)) slices_S1600x4_S1600x1_0_0)⟩, ⟨S1600x1, subf (extractStridedSlice S1600x1 ![0, 3] (m ((c : Thread nD τ).loc main_arg2)) slices_S1600x4_S1600x1_0_3) (extractStridedSlice S1600x1 ![0, 1] (m ((c : Thread nD τ).loc main_arg2)) slices_S1600x4_S1600x1_0_1)⟩] concatenates_S1600x1_S1600x1_S1600x1_S1600x1_S1600x4_d1) transposes_S1600x4_S4x1600_1_0 := by
  show StableHlo.after hostOps0 (fun b => m (c, b)) (Proc.devRef .tc main_v16) = _
  after_results
  all_goals rfl

theorem V_main_v23 (c : Dev nD) : (V m c main_v23 : S80x1600.Idx → Elt F .bf16) = uitofp .bf16 (cmpi .eq (broadcastInDim S80x1600 ![0, 1] bcast_S80x1_S80x1600_0_1 (broadcastInDim S80x1 ![0] bcast_S80_S80x1_0 (iotaInDim S80 32 0))) (broadcastInDim S80x1600 ![0, 1] bcast_S1x1600_S80x1600_0_1 (broadcastInDim S1x1600 ![1] bcast_S1600_S1x1600_1 (m ((c : Thread nD τ).loc main_arg3))))) := by
  show StableHlo.after hostOps0 (fun b => m (c, b)) (Proc.devRef .tc main_v23) = _
  after_results
  all_goals rfl

end Cert.KernelIdeal.Fr
end
-- ==== Proof.Spec.lean ====
/-
  The matching cost of one (query, target) pair, as a function of the four argument arrays over the extended reals.

  For query row (b, q) with predicted box (px, py, pw, ph) in centre/size form, target t with box (x1, y1, x2, y2) in
  corner form and label L:
    • the L1 term: the target's centre/size form is ((x1 + x2)/2, (y1 + y2)/2, x2 − x1, y2 − y1), and the term is the
      sum of the four absolute differences, summed left to right;
    • the class term: with p the logistic of a logit and q = 1 − p, the focal difference is
      ¼ q² (0 − log (p + ε)) − ¾ p² (0 − log (q + ε)), and the term is its sum over the 80 classes against the 0/1
      indicator of "class = L" (for a label inside the class range: the focal difference at the label's logit);
    • the overlap term: the prediction's corner form is (px ∓ pw/2, py ∓ ph/2); intersection, union and enclosing box
      are the usual ones, widths and heights cut off below at zero, and the term is
      inter/union − (enclosing − union)/enclosing.
  The cost is (5 · L1 + 2 · class) + 2 · (0 − overlap).  Every float literal is kept as its word.
-/
import Idealize.ShloMosaic.PureOps.Ideal
import Idealize.ShloMosaic.PureOps.Ideal.Laws
import Idealize.ShloMosaic.Lib.ValueIdx

noncomputable section

open scoped BigOperators

namespace Cert.CostSpec

open Idealize.ShloMosaic Idealize.ShloMosaic.ValueIdx

abbrev one : EReal := Ideal.ofBits .f32 0x3F800000#32
abbrev eps : EReal := Ideal.ofBits .f32 0x322BCC77#32
abbrev threeQuarters : EReal := Ideal.ofBits .f32 0x3F400000#32
abbrev quarter : EReal := Ideal.ofBits .f32 0x3E800000#32
abbrev half : EReal := Ideal.ofBits .f32 0x3F000000#32
abbrev two : EReal := Ideal.ofBits .f32 0x40000000#32
abbrev five : EReal := Ideal.ofBits .f32 0x40A00000#32

/-- The absolute value on the extended reals. -/
def absE (x : EReal) : EReal := max x (-x)

/-- The sum of the four absolute coordinate differences, left to right. -/
def l1 (px py pw ph tx ty tw th : EReal) : EReal :=
  absE (px - tx) + absE (py - ty) + absE (pw - tw) + absE (ph - th)

/-- The focal class-cost difference at a logit. -/
def focal (x : EReal) : EReal :=
  (quarter * ((one - Ideal.logistic x) * (one - Ideal.logistic x))) * (0 - Ideal.log (Ideal.logistic x + eps))
    - (threeQuarters * (Ideal.logistic x * Ideal.logistic x)) * (0 - Ideal.log ((one - Ideal.logistic x) + eps))

/-- Intersection over union less the enclosing box's excess, of two boxes in corner form. -/
def giou (ax1 ay1 ax2 ay2 bx1 by1 bx2 by2 : EReal) : EReal :=
  Ideal.div (max 0 (min ax2 bx2 - max ax1 bx1) * max 0 (min ay2 by2 - max ay1 by1))
      ((ax2 - ax1) * (ay2 - ay1) + (bx2 - bx1) * (by2 - by1)
        - max 0 (min ax2 bx2 - max ax1 bx1) * max 0 (min ay2 by2 - max ay1 by1))
    - Ideal.div
        (max 0 (max ax2 bx2 - min ax1 bx1) * max 0 (max ay2 by2 - min ay1 by1)
          - ((ax2 - ax1) * (ay2 - ay1) + (bx2 - bx1) * (by2 - by1)
              - max 0 (min ax2 bx2 - max ax1 bx1) * max 0 (min ay2 by2 - max ay1 by1)))
        (max 0 (max ax2 bx2 - min ax1 bx1) * max 0 (max ay2 by2 - min ay1 by1))

/-- The 0/1 indicator of "class `k` is the label `L`". -/
def isLabel (k : ℕ) (L : BitVec 32) : EReal := if L.toNat = k then 1 else 0

/-- The cost of a pair from the prediction's box, the target's corners and the class term. -/
def pairCost (px py pw ph x1 y1 x2 y2 cls : EReal) : EReal :=
  (five * l1 px py pw ph ((x1 + x2) * half) ((y1 + y2) * half) (x2 - x1) (y2 - y1) + two * cls)
    + two * (0 - giou (px - half * pw) (py - half * ph) (px + half * pw) (py + half * ph) x1 y1 x2 y2)

/-- The class term of query row (b, q) against a label: the focal differences of the row's 80 logits against the
    label's indicator. -/
def classTerm (logits : (⟨3, ![16, 900, 80]⟩ : Shape).Idx → EReal) (b : Fin 16) (q : Fin 900) (L : BitVec 32) : EReal :=
  ∑ k : Fin 80, focal (logits (ix3 b q k)) * isLabel k.val L

/-- The cost matrix entry at batch `b`, query `q`, target `t`. -/
def costAt (logits : (⟨3, ![16, 900, 80]⟩ : Shape).Idx → EReal) (boxes : (⟨3, ![16, 900, 4]⟩ : Shape).Idx → EReal)
    (tgt : (⟨2, ![1600, 4]⟩ : Shape).Idx → EReal) (labels : (⟨1, ![1600]⟩ : Shape).Idx → BitVec 32)
    (b : Fin 16) (q : Fin 900) (t : Fin 1600) : EReal :=
  pairCost (boxes (ix3 b q (0 : Fin 4))) (boxes (ix3 b q (1 : Fin 4))) (boxes (ix3 b q (2 : Fin 4))) (boxes (ix3 b q (3 : Fin 4)))
    (tgt (ix2 t (0 : Fin 4))) (tgt (ix2 t (1 : Fin 4))) (tgt (ix2 t (2 : Fin 4))) (tgt (ix2 t (3 : Fin 4)))
    (classTerm logits b q (labels (ix1 t)))

/-- The whole result array. -/
def G (logits : (⟨3, ![16, 900, 80]⟩ : Shape).Idx → EReal) (boxes : (⟨3, ![16, 900, 4]⟩ : Shape).Idx → EReal)
    (tgt : (⟨2, ![1600, 4]⟩ : Shape).Idx → EReal) (labels : (⟨1, ![1600]⟩ : Shape).Idx → BitVec 32) :
    (⟨3, ![16, 900, 1600]⟩ : Shape).Idx → EReal :=
  fun i => costAt logits boxes tgt labels (i 0) (i 1) (i 2)

/-- Against a label inside the class range the class term is the focal difference at the label's logit: every other
    summand is a product with zero. -/
theorem classTerm_of_lt (logits : (⟨3, ![16, 900, 80]⟩ : Shape).Idx → EReal) (b : Fin 16) (q : Fin 900) (L : BitVec 32)
    (h : L.toNat < 80) : classTerm logits b q L = focal (logits (ix3 b q ⟨L.toNat, h⟩)) := by
  unfold classTerm
  rw [Finset.sum_eq_single (⟨L.toNat, h⟩ : Fin 80)]
  · simp [isLabel]
  · intro k _ hk
    have : L.toNat ≠ k.val := fun e => hk (Fin.ext e.symm)
    simp [isLabel, this]
  · intro h'; exact absurd (Finset.mem_univ _) h'

end Cert.CostSpec

end
-- ==== Proof.BlockEntries.lean ====
/-
  An entry of each input window's block at grid point `t`, over the extended reals, from the argument arrays.

  Point `t` stages rows 480·t … 480·t + 479 of the flattened logits and boxes, and the whole of the three tables (their
  block index is (0, 0) at every point).  Row b·900 + q of a flattened array is row (b, q) of the batch.  The
  transposed tables read the targets' corners (and their centre/size form) with the coordinates swapped.  The one-hot
  table's entry at (class k, target t) is the 0/1 indicator that the label of t is k: the compare of the iota word k
  with the label, converted to a float.
-/
import proofs.«419403_j7387343749451_2_alg».proof.Proof.HostVals
import proofs.«419403_j7387343749451_2_alg».proof.Proof.Spec
import Idealize.ShloMosaic.Lib.ValueIdx
import Idealize.ShloMosaic.Lib.IdealHost
import Idealize.ShloMosaic.Lib.Pipeline.Value

set_option maxRecDepth 16384

noncomputable section

open scoped BigOperators

namespace Cert.KernelIdeal.Fr

open Cert.KernelIdeal.Gen Cert.CostSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The printed index maps, decided over the 30 grid points: the row-blocked windows sit at block (t, 0), the tables at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A logit of the block: row r of point t is query row (b, q) when b·900 + q = 480·t + r. -/
theorem logits_entry (c : Dev nD) (t : Fin cfg0.N) (r : Fin 480) (k : Fin 80) (b : Fin 16) (q : Fin 900)
    (hbq : b.val * 900 + q.val = t.val * 480 + r.val) :
    (iblk m c 0 t : S480x80.Idx → EReal) (ix2 r k) = m ((c : Thread nD τ).loc main_arg0) (ix3 b q k) := by
  show V m c main_v0 (((cfg0.win 0).blk t).view.emb (ix2 r k)) = _
  rw [V_main_v0]
  refine shapeCast_apply _ _ _ _ ?_
  show (S16x900x80.rowMajor (ix3 b q k)).val = (S14400x80.rowMajor (((cfg0.win 0).blk t).view.emb (ix2 r k))).val
  rw [Shape.rowMajor_val_three, Shape.rowMajor_val_two]
  obtain ⟨e0, e1, -⟩ := idx_facts t
  show (b.val * 900 + q.val) * 80 + k.val = (win0_0.index t (0 : Fin 2) * 480 + 1 * r.val) * 80 + (win0_0.index t (1 : Fin 2) * 80 + 1 * k.val)
  omega

/-- A box coordinate of the block. -/
theorem boxes_entry (c : Dev nD) (t : Fin cfg0.N) (r : Fin 480) (j : Fin 4) (b : Fin 16) (q : Fin 900)
    (hbq : b.val * 900 + q.val = t.val * 480 + r.val) :
    (iblk m c 1 t : S480x4.Idx → EReal) (ix2 r j) = m ((c : Thread nD τ).loc main_arg1) (ix3 b q j) := by
  show V m c main_v1 (((cfg0.win 1).blk t).view.emb (ix2 r j)) = _
  rw [V_main_v1]
  refine shapeCast_apply _ _ _ _ ?_
  show (S16x900x4.rowMajor (ix3 b q j)).val = (S14400x4.rowMajor (((cfg0.win 1).blk t).view.emb (ix2 r j))).val
  rw [Shape.rowMajor_val_three, Shape.rowMajor_val_two]
  obtain ⟨-, -, e0, e1, -⟩ := idx_facts t
  show (b.val * 900 + q.val) * 4 + j.val = (win0_1.index t (0 : Fin 2) * 480 + 1 * r.val) * 4 + (win0_1.index t (1 : Fin 2) * 4 + 1 * j.val)
  omega

/-- An entry of the transposed corner table: coordinate j of target tt. -/
theorem corners_entry (c : Dev nD) (t : Fin cfg0.N) (j : Fin 4) (tt : Fin 1600) :
    (iblk m c 2 t : S4x1600.Idx → EReal) (ix2 j tt) = m ((c : Thread nD τ).loc main_arg2) (ix2 tt j) := by
  show V m c main_v15 (((cfg0.win 2).blk t).view.emb (ix2 j tt)) = _
  rw [V_main_v15]
  obtain ⟨-, -, -, -, e0, e1, -⟩ := idx_facts t
  refine transpose_apply _ _ _ _ _ fun b => ?_
  match b with
  | ⟨0, _⟩ => show j.val = win0_2.index t (0 : Fin 2) * 4 + 1 * j.val; omega
  | ⟨1, _⟩ => show tt.val = win0_2.index t (1 : Fin 2) * 1600 + 1 * tt.val; omega

/-- A class index below 80, as a 32-bit word, is a label word iff the label's value is that index. -/
theorem word_eq_iff (k : Fin 80) (L : BitVec 32) : BitVec.ofNat 32 k.val = L ↔ L.toNat = k.val := by
  have hk : k.val % 2 ^ 32 = k.val := Nat.mod_eq_of_lt (by have := k.isLt; omega)
  constructor
  · rintro rfl; rw [BitVec.toNat_ofNat]; exact hk
  · intro h; apply BitVec.eq_of_toNat_eq; rw [BitVec.toNat_ofNat, h]; exact hk

/-- The float of the compare of the class word with the label is the label's indicator. -/
theorem onehot_word (k : Fin 80) (L : BitVec 32) :
    FloatOps.uitofp (F := Ideal) .bf16 (IntOp.cmpi .eq (BitVec.ofNat 32 k.val) L) = isLabel k.val L := by
  show (((IntOp.cmpi .eq (BitVec.ofNat 32 k.val) L).toNat : ℝ) : EReal) = _
  unfold isLabel IntOp.cmpi
  by_cases h : L.toNat = k.val
  · have e : BitVec.ofNat 32 k.val = L := (word_eq_iff k L).2 h
    rw [if_pos h, e]; simp
  · have e : ¬ BitVec.ofNat 32 k.val = L := fun e => h ((word_eq_iff k L).1 e)
    rw [if_neg h]; simp [e]

/-- An entry of the one-hot table: class k against target tt. -/
theorem onehot_entry (c : Dev nD) (t : Fin cfg0.N) (k : Fin 80) (tt : Fin 1600) :
    (iblk m c 4 t : S80x1600.Idx → EReal) (ix2 k tt) = isLabel k.val (m ((c : Thread nD τ).loc main_arg3) (ix1 tt)) := by
  show V m c main_v23 (((cfg0.win 4).blk t).view.emb (ix2 k tt)) = _
  rw [V_main_v23]
  obtain ⟨-, -, -, -, -, -, -, -, e0, e1, -⟩ := idx_facts t
  have hemb : ((cfg0.win 4).blk t).view.emb (ix2 k tt) = (ix2 k tt : S80x1600.Idx) := by
    funext a; apply Fin.ext
    match a with
    | ⟨0, _⟩ => show win0_4.index t (0 : Fin 2) * 80 + 1 * k.val = k.val; omega
    | ⟨1, _⟩ => show win0_4.index t (1 : Fin 2) * 1600 + 1 * tt.val = tt.val; omega
  rw [hemb]
  have hA : (broadcastInDim S80x1600 ![0, 1] bcast_S80x1_S80x1600_0_1 (broadcastInDim S80x1 ![0] bcast_S80_S80x1_0 (iotaInDim S80 32 0))) (ix2 k tt)
      = BitVec.ofNat 32 k.val := by
    rw [broadcastInDim_apply _ _ _ (ix2 k tt) (ix2 k (0 : Fin 1)) (fun a => by
        match a with
        | ⟨0, _⟩ => show k.val = if (80 : ℕ) = 1 then 0 else k.val; simp
        | ⟨1, _⟩ => show (0 : ℕ) = if (1 : ℕ) = 1 then 0 else tt.val; simp),
      broadcastInDim_apply _ _ _ (ix2 k (0 : Fin 1)) (ix1 k) (fun a => by
        match a with
        | ⟨0, _⟩ => show k.val = if (80 : ℕ) = 1 then 0 else k.val; simp)]
    rfl
  have hB : (broadcastInDim S80x1600 ![0, 1] bcast_S1x1600_S80x1600_0_1 (broadcastInDim S1x1600 ![1] bcast_S1600_S1x1600_1 (m ((c : Thread nD τ).loc main_arg3)))) (ix2 k tt)
      = m ((c : Thread nD τ).loc main_arg3) (ix1 tt) := by
    rw [broadcastInDim_apply _ _ _ (ix2 k tt) (ix2 (0 : Fin 1) tt) (fun a => by
        match a with
        | ⟨0, _⟩ => show (0 : ℕ) = if (1 : ℕ) = 1 then 0 else k.val; simp
        | ⟨1, _⟩ => show tt.val = if (1600 : ℕ) = 1 then 0 else tt.val; simp),
      broadcastInDim_apply _ _ _ (ix2 (0 : Fin 1) tt) (ix1 tt) (fun a => by
        match a with
        | ⟨0, _⟩ => show tt.val = if (1600 : ℕ) = 1 then 0 else tt.val; simp)]
  show FloatOps.uitofp (F := Ideal) .bf16 (IntOp.cmpi .eq _ _) = _
  rw [hA, hB]
  exact onehot_word k _

/-- Column j of a table with four columns, sliced out, at row tt. -/
theorem slice_col (A : S1600x4.Idx → EReal) (off : Fin S1600x4.rank → Nat) (h : S1600x4.Slices off S1600x1) (j : Fin 4)
    (ho : off = ![0, j.val]) (tt : Fin 1600) :
    extractStridedSlice S1600x1 off A h (ix2 tt (0 : Fin 1)) = A (ix2 tt j) := by
  subst ho
  refine extractStridedSlice_apply _ _ _ _ _ fun a => ?_
  match a with
  | ⟨0, _⟩ => show tt.val = 0 + tt.val; omega
  | ⟨1, _⟩ => show j.val = j.val + 0; omega

/-- The targets' centre/size table as the host joins it: the four columns ((x1 + x2)·½, (y1 + y2)·½, x2 − x1, y2 − y1) of
    the corner table `A`, side by side. -/
abbrev centreTable (A : FVec Ideal S1600x4 .f32) : FVec Ideal S1600x4 .f32 :=
  concatenate S1600x4 1 [⟨S1600x1, (mulf (F := Ideal) (addf (F := Ideal) (extractStridedSlice S1600x1 ![0, 0] A slices_S1600x4_S1600x1_0_0) (extractStridedSlice S1600x1 ![0, 2] A slices_S1600x4_S1600x1_0_2)) (broadcastInDim S1600x1 ![] bcast_S_S1600x1 (constant (F := Ideal) S_ .f32 0x3F000000#32)))⟩, ⟨S1600x1, (mulf (F := Ideal) (addf (F := Ideal) (extractStridedSlice S1600x1 ![0, 1] A slices_S1600x4_S1600x1_0_1) (extractStridedSlice S1600x1 ![0, 3] A slices_S1600x4_S1600x1_0_3)) (broadcastInDim S1600x1 ![] bcast_S_S1600x1 (constant (F := Ideal) S_ .f32 0x3F000000#32)))⟩, ⟨S1600x1, (subf (F := Ideal) (extractStridedSlice S1600x1 ![0, 2] A slices_S1600x4_S1600x1_0_2) (extractStridedSlice S1600x1 ![0, 0] A slices_S1600x4_S1600x1_0_0))⟩, ⟨S1600x1, (subf (F := Ideal) (extractStridedSlice S1600x1 ![0, 3] A slices_S1600x4_S1600x1_0_3) (extractStridedSlice S1600x1 ![0, 1] A slices_S1600x4_S1600x1_0_1))⟩] concatenates_S1600x1_S1600x1_S1600x1_S1600x1_S1600x4_d1

/-- The splat of one half, read anywhere. -/
theorem half_splat (tt : Fin 1600) : (broadcastInDim S1600x1 ![] bcast_S_S1600x1 (constant (F := Ideal) S_ .f32 0x3F000000#32)) (ix2 tt (0 : Fin 1)) = half := by
  rw [broadcastInDim_scalar_apply]; rfl

theorem centreTable_0 (A : FVec Ideal S1600x4 .f32) (tt : Fin 1600) :
    centreTable A (ix2 tt (0 : Fin 4)) = (A (ix2 tt (0 : Fin 4)) + A (ix2 tt (2 : Fin 4))) * half := by
  refine (concatenate_apply_piece (1 : Fin S1600x4.rank) _ _ (ix2 tt (0 : Fin 4)) 0 (by simp) S1600x1 _ rfl rfl 0 (by simp) (ix2 tt (0 : Fin 1)) ?_ ?_).trans ?_
  · intro b hb
    match b with
    | ⟨0, _⟩ => rfl
    | ⟨1, _⟩ => exact absurd rfl hb
  · rfl
  · show ((extractStridedSlice S1600x1 ![0, 0] A slices_S1600x4_S1600x1_0_0) (ix2 tt (0 : Fin 1)) + (extractStridedSlice S1600x1 ![0, 2] A slices_S1600x4_S1600x1_0_2) (ix2 tt (0 : Fin 1))) * (broadcastInDim S1600x1 ![] bcast_S_S1600x1 (constant (F := Ideal) S_ .f32 0x3F000000#32)) (ix2 tt (0 : Fin 1)) = _
    rw [slice_col A ![0, 0] slices_S1600x4_S1600x1_0_0 (0 : Fin 4) rfl tt, slice_col A ![0, 2] slices_S1600x4_S1600x1_0_2 (2 : Fin 4) rfl tt, half_splat]

theorem centreTable_1 (A : FVec Ideal S1600x4 .f32) (tt : Fin 1600) :
    centreTable A (ix2 tt (1 : Fin 4)) = (A (ix2 tt (1 : Fin 4)) + A (ix2 tt (3 : Fin 4))) * half := by
  refine (concatenate_apply_piece (1 : Fin S1600x4.rank) _ _ (ix2 tt (1 : Fin 4)) 1 (by simp) S1600x1 _ rfl rfl 1 (by simp) (ix2 tt (0 : Fin 1)) ?_ ?_).trans ?_
  · intro b hb
    match b with
    | ⟨0, _⟩ => rfl
    | ⟨1, _⟩ => exact absurd rfl hb
  · rfl
  · show ((extractStridedSlice S1600x1 ![0, 1] A slices_S1600x4_S1600x1_0_1) (ix2 tt (0 : Fin 1)) + (extractStridedSlice S1600x1 ![0, 3] A slices_S1600x4_S1600x1_0_3) (ix2 tt (0 : Fin 1))) * (broadcastInDim S1600x1 ![] bcast_S_S1600x1 (constant (F := Ideal) S_ .f32 0x3F000000#32)) (ix2 tt (0 : Fin 1)) = _
    rw [slice_col A ![0, 1] slices_S1600x4_S1600x1_0_1 (1 : Fin 4) rfl tt, slice_col A ![0, 3] slices_S1600x4_S1600x1_0_3 (3 : Fin 4) rfl tt, half_splat]

theorem centreTable_2 (A : FVec Ideal S1600x4 .f32) (tt : Fin 1600) :
    centreTable A (ix2 tt (2 : Fin 4)) = A (ix2 tt (2 : Fin 4)) - A (ix2 tt (0 : Fin 4)) := by
  refine (concatenate_apply_piece (1 : Fin S1600x4.rank) _ _ (ix2 tt (2 : Fin 4)) 2 (by simp) S1600x1 _ rfl rfl 2 (by simp) (ix2 tt (0 : Fin 1)) ?_ ?_).trans ?_
  · intro b hb
    match b with
    | ⟨0, _⟩ => rfl
    | ⟨1, _⟩ => exact absurd rfl hb
  · rfl
  · show (extractStridedSlice S1600x1 ![0, 2] A slices_S1600x4_S1600x1_0_2) (ix2 tt (0 : Fin 1)) - (extractStridedSlice S1600x1 ![0, 0] A slices_S1600x4_S1600x1_0_0) (ix2 tt (0 : Fin 1)) = _
    rw [slice_col A ![0, 2] slices_S1600x4_S1600x1_0_2 (2 : Fin 4) rfl tt, slice_col A ![0, 0] slices_S1600x4_S1600x1_0_0 (0 : Fin 4) rfl tt]

theorem centreTable_3 (A : FVec Ideal S1600x4 .f32) (tt : Fin 1600) :
    centreTable A (ix2 tt (3 : Fin 4)) = A (ix2 tt (3 : Fin 4)) - A (ix2 tt (1 : Fin 4)) := by
  refine (concatenate_apply_piece (1 : Fin S1600x4.rank) _ _ (ix2 tt (3 : Fin 4)) 3 (by simp) S1600x1 _ rfl rfl 3 (by simp) (ix2 tt (0 : Fin 1)) ?_ ?_).trans ?_
  · intro b hb
    match b with
    | ⟨0, _⟩ => rfl
    | ⟨1, _⟩ => exact absurd rfl hb
  · rfl
  · show (extractStridedSlice S1600x1 ![0, 3] A slices_S1600x4_S1600x1_0_3) (ix2 tt (0 : Fin 1)) - (extractStridedSlice S1600x1 ![0, 1] A slices_S1600x4_S1600x1_0_1) (ix2 tt (0 : Fin 1)) = _
    rw [slice_col A ![0, 3] slices_S1600x4_S1600x1_0_3 (3 : Fin 4) rfl tt, slice_col A ![0, 1] slices_S1600x4_S1600x1_0_1 (1 : Fin 4) rfl tt]

/-- An entry of the transposed centre/size table: coordinate j of target tt. -/
theorem centres_entry (c : Dev nD) (t : Fin cfg0.N) (j : Fin 4) (tt : Fin 1600) :
    (iblk m c 3 t : S4x1600.Idx → EReal) (ix2 j tt) = centreTable (m ((c : Thread nD τ).loc main_arg2)) (ix2 tt j) := by
  show V m c main_v16 (((cfg0.win 3).blk t).view.emb (ix2 j tt)) = _
  rw [V_main_v16]
  obtain ⟨-, -, -, -, -, -, e0, e1, -⟩ := idx_facts t
  exact transpose_apply [1, 0] (centreTable (m ((c : Thread nD τ).loc main_arg2))) transposes_S1600x4_S4x1600_1_0 _ (ix2 tt j) (fun b => by
    match b with
    | ⟨0, _⟩ => show j.val = win0_3.index t (0 : Fin 2) * 4 + 1 * j.val; omega
    | ⟨1, _⟩ => show tt.val = win0_3.index t (1 : Fin 2) * 1600 + 1 * tt.val; omega)

end Cert.KernelIdeal.Fr
end
-- ==== Proof.BlockDef.lean ====
/-
  The output block the kernel body leaves at a grid point, as one term of the five input blocks (the logits block, the
  predicted boxes block, the targets' corner table, the targets' centre/size table, the class one-hot table).
-/
import proofs.«419403_j7387343749451_2_alg».proof.Proof.Gen.KernelIdeal.Skeleton

noncomputable section

namespace Cert.KernelIdeal.Val

open Cert.KernelIdeal Cert.KernelIdeal.Gen
open Idealize.ShloMosaic

variable {F : FTy → Type} [FloatOps F]

/-- The output block the body leaves, as one term of the five input blocks: the third store's value, computed from the
    corner-form terms and from a load-back of the second store's value, itself computed from the class term and a
    load-back of the first store's value (the scaled L1 term). -/
def blockVal (x0 : Vec F S480x80 .f32) (x1 : Vec F S480x4 .f32) (x2 : Vec F S4x1600 .f32) (x3 : Vec F S4x1600 .f32) (x4 : Vec F S80x1600 .bf16) : Vec F S480x1600 .f32 :=
  k0_pay1 (k0_pay24 (k0_pay14 (k0_pay3 x1) (k0_pay5 x1)) (k0_pay15 (k0_pay4 x1) (k0_pay6 x1)) (k0_pay16 (k0_pay3 x1) (k0_pay5 x1)) (k0_pay17 (k0_pay4 x1) (k0_pay6 x1)) (k0_pay19 x2) (k0_pay20 x2) (k0_pay21 x2) (k0_pay22 x2) (k0_pay23 (k0_pay3 x1) (k0_pay5 x1)))
    (k0_pay25 (k0_pay13 (k0_pay8 x0) (k0_pay10 x0) (k0_pay11 x0) (k0_pay12 x0) x4 (k0_pay7 x1 x3)))
    (Scalar.ofBits .f32 0x00000000#32)

end Cert.KernelIdeal.Val

end
-- ==== Proof.BlockOut.lean ====
/-
  The block the body's run leaves in the output window is the composed payload term `blockVal` of the input blocks.
  The run's piece list has the last store first; that store's rectangle is the whole block, so the list read back is
  its payload; the payload mentions two load-backs of the output buffer, each of a list whose first piece covers the
  block, so each reads that piece's payload.
-/
import proofs.«419403_j7387343749451_2_alg».proof.Proof.FrameI
import proofs.«419403_j7387343749451_2_alg».proof.Proof.BlockDef
import Idealize.ShloMosaic.Lib.Pipeline.Value

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.KernelIdeal.Val

/-- A load through the whole-shape rectangle of a piece list whose FIRST piece was stored through that rectangle reads
    that piece's payload, whatever the earlier pieces were. -/
theorem readCov_cons_whole {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

set_option maxHeartbeats 2000000 in
/-- The block the body's run leaves is `blockVal` of the input blocks. -/
theorem out0_A_5_eq (c : Dev nD) (i : grid0.Coords) (arg1 : Memref sig .tc .vmem S480x80 .f32) (harg1 : arg1.IsWhole) (arg2 : Memref sig .tc .vmem S480x4 .f32) (harg2 : arg2.IsWhole) (arg3 : Memref sig .tc .vmem S4x1600 .f32) (harg3 : arg3.IsWhole) (arg4 : Memref sig .tc .vmem S4x1600 .f32) (harg4 : arg4.IsWhole) (arg5 : Memref sig .tc .vmem S80x1600 .bf16) (harg5 : arg5.IsWhole) (arg6 : Memref sig .tc .vmem S480x1600 .f32) (harg6 : arg6.IsWhole)
    (x0 : Vec F S480x80 .f32) (x1 : Vec F S480x4 .f32) (x2 : Vec F S4x1600 .f32) (x3 : Vec F S4x1600 .f32) (x4 : Vec F S80x1600 .bf16) : out0_A_5 c i arg1 harg1 arg2 harg2 arg3 harg3 arg4 harg4 arg5 harg5 arg6 harg6 x0 x1 x2 x3 x4 = blockVal x0 x1 x2 x3 x4 := by
  have hz : (![0, 0] : Fin S480x1600.rank → Nat) = fun _ => 0 := by funext a; fin_cases a <;> rfl
  have hz80 : (![0, 0] : Fin S480x80.rank → Nat) = fun _ => 0 := by funext a; fin_cases a <;> rfl
  have hz4 : (![0, 0] : Fin S480x4.rank → Nat) = fun _ => 0 := by funext a; fin_cases a <;> rfl
  have hzt : (![0, 0] : Fin S4x1600.rank → Nat) = fun _ => 0 := by funext a; fin_cases a <;> rfl
  have hzo : (![0, 0] : Fin S80x1600.rank → Nat) = fun _ => 0 := by funext a; fin_cases a <;> rfl
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_cons_unit_zero (S := S480x1600) hz]
  simp only [View.readAt_eq_ld, harg1.read_unread, harg2.read_unread, harg3.read_unread, harg4.read_unread, harg5.read_unread,
    View.ld_unit_zero (S := S480x80) hz80, View.ld_unit_zero (S := S480x4) hz4, View.ld_unit_zero (S := S4x1600) hzt, View.ld_unit_zero (S := S80x1600) hzo]
  rw [readCov_cons_whole (S := S480x1600) _ hz, View.readCov_unit_zero (S := S480x1600) _ hz]
  rfl

end Cert.KernelIdeal.Fr
end
-- ==== Proof.BlockAt.lean ====
/-
  The output block at (row, target), over the extended reals: the specification's cost of the block's entries, with the
  class term still the sum of the row's focal differences against the one-hot table's column.
-/
import proofs.«419403_j7387343749451_2_alg».proof.Proof.BlockDef
import proofs.«419403_j7387343749451_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Cert.KernelIdeal Cert.KernelIdeal.Gen
open Idealize.ShloMosaic Idealize.ShloMosaic.ValueIdx Cert.CostSpec

/-! ## Layout operations at an index -/

/-- A one-column block broadcast along the second axis reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `o` of a four-row table, cut out as a one-row block, reads at column t the table's entry (o, t). -/
theorem row_apply (x : Vec Ideal S4x1600 .f32) (o : ℕ) (h : S4x1600.Slices ![o, 0] S1x1600) (k : Fin 4) (hk : k.val = o) (u : Fin 1) (t : Fin 1600) :
    extractStridedSlice S1x1600 ![o, 0] x h (ix2 u t) = x (ix2 k t) :=
  slice2_axis0_apply o x h u t k (by have := u.isLt; omega)

/-- The absolute value of a block at an index is the larger of the entry and its negative. -/
theorem absf_apply {s : Shape} {φ : FTy} (a : FVec Ideal s φ) (i : s.Idx) : absf a i = max (a i) (-(a i)) := rfl
/-- The logistic of a block at an index is the logistic of the entry. -/
theorem logistic_apply {s : Shape} {φ : FTy} (a : FVec Ideal s φ) (i : s.Idx) : logistic a i = Ideal.logistic (a i) := rfl
/-- The logarithm of a block at an index is the logarithm of the entry. -/
theorem log_apply {s : Shape} {φ : FTy} (a : FVec Ideal s φ) (i : s.Idx) : log a i = Ideal.log (a i) := rfl

/-! ## The predicted boxes' four columns and the targets' four corner rows -/

/-- The centre-x column of the boxes block at row r. -/
theorem pay3_apply (x1 : Vec Ideal S480x4 .f32) (r : Fin 480) (u : Fin 1) :
    k0_pay3 (F := Ideal) x1 (ix2 r u) = x1 (ix2 r (0 : Fin 4)) := by
  unfold k0_pay3 k0_pay2
  rw [shapeCast_self]
  exact slice2_axis1_apply 0 x1 _ r u (0 : Fin 4) (by have := u.isLt; show 0 = 0 + u.val; omega)

/-- The centre-y column of the boxes block at row r. -/
theorem pay4_apply (x1 : Vec Ideal S480x4 .f32) (r : Fin 480) (u : Fin 1) :
    k0_pay4 (F := Ideal) x1 (ix2 r u) = x1 (ix2 r (1 : Fin 4)) := by
  unfold k0_pay4 k0_pay2
  rw [shapeCast_self]
  exact slice2_axis1_apply 1 x1 _ r u (1 : Fin 4) (by have := u.isLt; show 1 = 1 + u.val; omega)

/-- The width column of the boxes block at row r. -/
theorem pay5_apply (x1 : Vec Ideal S480x4 .f32) (r : Fin 480) (u : Fin 1) :
    k0_pay5 (F := Ideal) x1 (ix2 r u) = x1 (ix2 r (2 : Fin 4)) := by
  unfold k0_pay5 k0_pay2
  rw [shapeCast_self]
  exact slice2_axis1_apply 2 x1 _ r u (2 : Fin 4) (by have := u.isLt; show 2 = 2 + u.val; omega)

/-- The height column of the boxes block at row r. -/
theorem pay6_apply (x1 : Vec Ideal S480x4 .f32) (r : Fin 480) (u : Fin 1) :
    k0_pay6 (F := Ideal) x1 (ix2 r u) = x1 (ix2 r (3 : Fin 4)) := by
  unfold k0_pay6 k0_pay2
  rw [shapeCast_self]
  exact slice2_axis1_apply 3 x1 _ r u (3 : Fin 4) (by have := u.isLt; show 3 = 3 + u.val; omega)

/-- The targets' left-edge row at column t. -/
theorem pay19_apply (x2 : Vec Ideal S4x1600 .f32) (u : Fin 1) (t : Fin 1600) :
    k0_pay19 (F := Ideal) x2 (ix2 u t) = x2 (ix2 (0 : Fin 4) t) := by
  unfold k0_pay19 k0_pay18
  rw [shapeCast_self]
  exact row_apply x2 0 _ (0 : Fin 4) rfl u t

/-- The targets' top-edge row at column t. -/
theorem pay20_apply (x2 : Vec Ideal S4x1600 .f32) (u : Fin 1) (t : Fin 1600) :
    k0_pay20 (F := Ideal) x2 (ix2 u t) = x2 (ix2 (1 : Fin 4) t) := by
  unfold k0_pay20 k0_pay18
  rw [shapeCast_self]
  exact row_apply x2 1 _ (1 : Fin 4) rfl u t

/-- The targets' right-edge row at column t. -/
theorem pay21_apply (x2 : Vec Ideal S4x1600 .f32) (u : Fin 1) (t : Fin 1600) :
    k0_pay21 (F := Ideal) x2 (ix2 u t) = x2 (ix2 (2 : Fin 4) t) := by
  unfold k0_pay21 k0_pay18
  rw [shapeCast_self]
  exact row_apply x2 2 _ (2 : Fin 4) rfl u t

/-- The targets' bottom-edge row at column t. -/
theorem pay22_apply (x2 : Vec Ideal S4x1600 .f32) (u : Fin 1) (t : Fin 1600) :
    k0_pay22 (F := Ideal) x2 (ix2 u t) = x2 (ix2 (3 : Fin 4) t) := by
  unfold k0_pay22 k0_pay18
  rw [shapeCast_self]
  exact row_apply x2 3 _ (3 : Fin 4) rfl u t

/-! ## The first store: five times the L1 distance -/

/-- The first store's value at (r, t): five times the sum, left to right, of the four absolute differences between
    the prediction's centre/size entries of row r and the target's centre/size entries of column t. -/
theorem pay7_apply (x1 : Vec Ideal S480x4 .f32) (x3 : Vec Ideal S4x1600 .f32) (r : Fin 480) (t : Fin 1600) :
    k0_pay7 (F := Ideal) x1 x3 (ix2 r t)
      = five * l1 (x1 (ix2 r (0 : Fin 4))) (x1 (ix2 r (1 : Fin 4))) (x1 (ix2 r (2 : Fin 4))) (x1 (ix2 r (3 : Fin 4)))
              (x3 (ix2 (0 : Fin 4) t)) (x3 (ix2 (1 : Fin 4) t)) (x3 (ix2 (2 : Fin 4) t)) (x3 (ix2 (3 : Fin 4) t)) := by
  unfold k0_pay7
  simp only [mulf_apply, addf_apply, subf_apply, absf_apply, broadcast_apply, broadcastTo_a1_ab_apply, broadcastTo_1b_ab_apply,
    pay3_apply, pay4_apply, pay5_apply, pay6_apply, shapeCast_self,
    row_apply x3 0 _ (0 : Fin 4) rfl, row_apply x3 1 _ (1 : Fin 4) rfl, row_apply x3 2 _ (2 : Fin 4) rfl, row_apply x3 3 _ (3 : Fin 4) rfl]
  rfl

/-! ## The product with the class table, as a sum over the 80 classes -/

/-- The left operand's index has the output's row on its first axis … -/
theorem dot_lhs_0 (j : S480x1600.Idx) (k : dot_S480x80_S80x1600_S480x1600_1_0_0_1_n_n.contr.Idx) :
    (dot_S480x80_S80x1600_S480x1600_1_0_0_1_n_n.lhsIdx j k 0 : ℕ) = j 0 := by
  simp [DotDims.lhsIdx, dot_S480x80_S80x1600_S480x1600_1_0_0_1_n_n]; rfl
/-- … and the contracted position on its second; -/
theorem dot_lhs_1 (j : S480x1600.Idx) (k : dot_S480x80_S80x1600_S480x1600_1_0_0_1_n_n.contr.Idx) :
    (dot_S480x80_S80x1600_S480x1600_1_0_0_1_n_n.lhsIdx j k 1 : ℕ) = k ⟨0, by decide⟩ := by
  simp [DotDims.lhsIdx, dot_S480x80_S80x1600_S480x1600_1_0_0_1_n_n]; rfl
/-- the right operand's index has the contracted position on its first axis … -/
theorem dot_rhs_0 (j : S480x1600.Idx) (k : dot_S480x80_S80x1600_S480x1600_1_0_0_1_n_n.contr.Idx) :
    (dot_S480x80_S80x1600_S480x1600_1_0_0_1_n_n.rhsIdx j k 0 : ℕ) = k ⟨0, by decide⟩ := by
  simp [DotDims.rhsIdx, dot_S480x80_S80x1600_S480x1600_1_0_0_1_n_n]; rfl
/-- … and the output's column on its second. -/
theorem dot_rhs_1 (j : S480x1600.Idx) (k : dot_S480x80_S80x1600_S480x1600_1_0_0_1_n_n.contr.Idx) :
    (dot_S480x80_S80x1600_S480x1600_1_0_0_1_n_n.rhsIdx j k 1 : ℕ) = j 1 := by
  simp [DotDims.rhsIdx, dot_S480x80_S80x1600_S480x1600_1_0_0_1_n_n]; rfl

/-- The product of a [480, 80] block with an [80, 1600] block, accumulated into the zero block, read at (r, t): the
    sum over the 80 contracted positions of row r's entries times column t's. -/
theorem matmul_rt (A : FVec Ideal S480x80 .bf16) (B : FVec Ideal S80x1600 .bf16) (r : Fin 480) (t : Fin 1600) :
    matmul dot_S480x80_S80x1600_S480x1600_1_0_0_1_n_n none A B (constant (F := Ideal) S480x1600 .f32 0x00000000#32) (ix2 r t)
      = ∑ k : Fin 80, A (ix2 r k) * B (ix2 k t) := by
  simp only [matmul]
  rw [Ideal.matmul_constant_zero_apply,
    ← Equiv.sum_comp (contrEquiv1 dot_S480x80_S80x1600_S480x1600_1_0_0_1_n_n 80 rfl rfl).symm]
  refine Finset.sum_congr rfl fun k _ => ?_
  have hl : dot_S480x80_S80x1600_S480x1600_1_0_0_1_n_n.lhsIdx (ix2 r t)
      ((contrEquiv1 dot_S480x80_S80x1600_S480x1600_1_0_0_1_n_n 80 rfl rfl).symm k) = ix2 r k := by
    funext a
    refine Fin.ext ?_
    match a with
    | ⟨0, _⟩ => exact dot_lhs_0 _ _
    | ⟨1, _⟩ => exact (dot_lhs_1 _ _).trans (contrEquiv1_symm_val _ 80 rfl rfl k)
  have hr : dot_S480x80_S80x1600_S480x1600_1_0_0_1_n_n.rhsIdx (ix2 r t)
      ((contrEquiv1 dot_S480x80_S80x1600_S480x1600_1_0_0_1_n_n 80 rfl rfl).symm k) = ix2 k t := by
    funext a
    refine Fin.ext ?_
    match a with
    | ⟨0, _⟩ => exact (dot_rhs_0 _ _).trans (contrEquiv1_symm_val _ 80 rfl rfl k)
    | ⟨1, _⟩ => exact dot_rhs_1 _ _
  rw [hl, hr]

/-! ## The focal pieces on the logits block, and the second store -/

/-- The probability p: the logistic of the logit. -/
theorem pay8_apply (x0 : Vec Ideal S480x80 .f32) (i : S480x80.Idx) :
    k0_pay8 (F := Ideal) x0 i = Ideal.logistic (x0 i) := by
  unfold k0_pay8
  rw [shapeCast_self]
  rfl

/-- The complement 1 − p. -/
theorem pay9_apply (x0 : Vec Ideal S480x80 .f32) (i : S480x80.Idx) :
    k0_pay9 (F := Ideal) x0 i = one - Ideal.logistic (x0 i) := by
  unfold k0_pay9
  simp only [subf_apply, broadcast_apply, pay8_apply]
  rfl

/-- The square (1 − p)². -/
theorem pay10_apply (x0 : Vec Ideal S480x80 .f32) (i : S480x80.Idx) :
    k0_pay10 (F := Ideal) x0 i = (one - Ideal.logistic (x0 i)) * (one - Ideal.logistic (x0 i)) := by
  unfold k0_pay10
  simp only [mulf_apply, pay9_apply]

/-- Three quarters of p². -/
theorem pay11_apply (x0 : Vec Ideal S480x80 .f32) (i : S480x80.Idx) :
    k0_pay11 (F := Ideal) x0 i = threeQuarters * (Ideal.logistic (x0 i) * Ideal.logistic (x0 i)) := by
  unfold k0_pay11
  simp only [mulf_apply, broadcast_apply, pay8_apply]
  rfl

/-- The logarithm of (1 − p) + ε. -/
theorem pay12_apply (x0 : Vec Ideal S480x80 .f32) (i : S480x80.Idx) :
    k0_pay12 (F := Ideal) x0 i = Ideal.log ((one - Ideal.logistic (x0 i)) + eps) := by
  unfold k0_pay12
  simp only [log_apply, addf_apply, broadcast_apply, pay9_apply]
  rfl

/-- The second store's value at (r, t): the loaded first store's entry plus twice the sum, over the 80 classes, of
    the focal differences of row r's logits against column t of the class table. -/
theorem pay13_apply (x0 : Vec Ideal S480x80 .f32) (x4 : Vec Ideal S80x1600 .bf16) (v62 : Vec Ideal S480x1600 .f32)
    (r : Fin 480) (t : Fin 1600) :
    k0_pay13 (F := Ideal) (k0_pay8 x0) (k0_pay10 x0) (k0_pay11 x0) (k0_pay12 x0) x4 v62 (ix2 r t)
      = v62 (ix2 r t) + two * ∑ k : Fin 80, focal (x0 (ix2 r k)) * x4 (ix2 k t) := by
  unfold k0_pay13
  simp only [addf_apply, mulf_apply, broadcast_apply, shapeCast_self, matmul_rt, truncf_apply, subf_apply, log_apply,
    pay8_apply, pay10_apply, pay11_apply, pay12_apply, Ideal.ofBits_def, Ideal.ofBits_zero_f32]
  rfl

/-! ## The prediction's corner form, and the overlap term -/

/-- The left edge: centre minus half the width. -/
theorem pay14_apply (v2 v4 : FVec Ideal S480x1 .f32) (i : S480x1.Idx) :
    k0_pay14 (F := Ideal) v2 v4 i = v2 i - half * v4 i := by
  unfold k0_pay14
  simp only [subf_apply, mulf_apply, broadcast_apply]
  rfl

/-- The top edge: centre minus half the height. -/
theorem pay15_apply (v3 v5 : FVec Ideal S480x1 .f32) (i : S480x1.Idx) :
    k0_pay15 (F := Ideal) v3 v5 i = v3 i - half * v5 i := by
  unfold k0_pay15
  simp only [subf_apply, mulf_apply, broadcast_apply]
  rfl

/-- The right edge: centre plus half the width. -/
theorem pay16_apply (v2 v4 : FVec Ideal S480x1 .f32) (i : S480x1.Idx) :
    k0_pay16 (F := Ideal) v2 v4 i = v2 i + half * v4 i := by
  unfold k0_pay16
  simp only [addf_apply, mulf_apply, broadcast_apply]
  rfl

/-- The bottom edge: centre plus half the height. -/
theorem pay17_apply (v3 v5 : FVec Ideal S480x1 .f32) (i : S480x1.Idx) :
    k0_pay17 (F := Ideal) v3 v5 i = v3 i + half * v5 i := by
  unfold k0_pay17
  simp only [addf_apply, mulf_apply, broadcast_apply]
  rfl

/-- The corner form's width: right edge minus left edge. -/
theorem pay23_apply (v2 v4 : FVec Ideal S480x1 .f32) (i : S480x1.Idx) :
    k0_pay23 (F := Ideal) v2 v4 i = (v2 i + half * v4 i) - (v2 i - half * v4 i) := by
  unfold k0_pay23
  simp only [subf_apply, pay14_apply, pay16_apply]

/-- The overlap term at (r, t), from the prediction's corner columns at row r and the targets' corner rows at
    column t, given that the width column is the right edge less the left edge at row r. -/
theorem pay24_apply (v70 v73 v76 v79 : FVec Ideal S480x1 .f32) (v82 v83 v84 v85 : FVec Ideal S1x1600 .f32)
    (v86 : FVec Ideal S480x1 .f32) (r : Fin 480) (t : Fin 1600)
    (h86 : v86 (ix2 r (0 : Fin 1)) = v76 (ix2 r (0 : Fin 1)) - v70 (ix2 r (0 : Fin 1))) :
    k0_pay24 (F := Ideal) v70 v73 v76 v79 v82 v83 v84 v85 v86 (ix2 r t)
      = giou (v70 (ix2 r (0 : Fin 1))) (v73 (ix2 r (0 : Fin 1))) (v76 (ix2 r (0 : Fin 1))) (v79 (ix2 r (0 : Fin 1)))
          (v82 (ix2 (0 : Fin 1) t)) (v83 (ix2 (0 : Fin 1) t)) (v84 (ix2 (0 : Fin 1) t)) (v85 (ix2 (0 : Fin 1) t)) := by
  unfold k0_pay24
  simp only [subf_apply, mulf_apply, addf_apply, divf_apply, maximumf_apply, minimumf_apply, broadcast_apply,
    broadcastTo_a1_ab_apply, broadcastTo_1b_ab_apply, h86, Ideal.ofBits_def, Ideal.ofBits_zero_f32]
  rfl

/-! ## The third store, and the assembly -/

/-- The third store's value at an index: the loaded second store's entry plus twice the constant less the overlap term. -/
theorem pay1_apply (v137 v139 : FVec Ideal S480x1600 .f32) (c : Ideal .f32) (i : S480x1600.Idx) :
    k0_pay1 (F := Ideal) v137 v139 c i = v139 i + two * (c - v137 i) := by
  unfold k0_pay1
  simp only [addf_apply, mulf_apply, subf_apply, broadcast_apply]
  rfl

/-- The load-back of the second store is read unchanged. -/
theorem pay25_apply (v138 : Vec Ideal S480x1600 .f32) (i : S480x1600.Idx) : k0_pay25 (F := Ideal) v138 i = v138 i := by
  unfold k0_pay25
  rw [shapeCast_self]

theorem blockVal_apply (x0 : Vec Ideal S480x80 .f32) (x1 : Vec Ideal S480x4 .f32) (x2 : Vec Ideal S4x1600 .f32) (x3 : Vec Ideal S4x1600 .f32)
    (x4 : Vec Ideal S80x1600 .bf16) (r : Fin 480) (t : Fin 1600) :
    blockVal (F := Ideal) x0 x1 x2 x3 x4 (ix2 r t)
      = (five * l1 (x1 (ix2 r (0 : Fin 4))) (x1 (ix2 r (1 : Fin 4))) (x1 (ix2 r (2 : Fin 4))) (x1 (ix2 r (3 : Fin 4)))
              (x3 (ix2 (0 : Fin 4) t)) (x3 (ix2 (1 : Fin 4) t)) (x3 (ix2 (2 : Fin 4) t)) (x3 (ix2 (3 : Fin 4) t))
          + two * ∑ k : Fin 80, focal (x0 (ix2 r k)) * x4 (ix2 k t))
        + two * (0 - giou (x1 (ix2 r (0 : Fin 4)) - half * x1 (ix2 r (2 : Fin 4))) (x1 (ix2 r (1 : Fin 4)) - half * x1 (ix2 r (3 : Fin 4)))
            (x1 (ix2 r (0 : Fin 4)) + half * x1 (ix2 r (2 : Fin 4))) (x1 (ix2 r (1 : Fin 4)) + half * x1 (ix2 r (3 : Fin 4)))
            (x2 (ix2 (0 : Fin 4) t)) (x2 (ix2 (1 : Fin 4) t)) (x2 (ix2 (2 : Fin 4) t)) (x2 (ix2 (3 : Fin 4) t))) := by
  unfold blockVal
  rw [pay1_apply, pay25_apply, pay13_apply, pay7_apply,
    pay24_apply _ _ _ _ _ _ _ _ _ r t (by rw [pay23_apply, pay16_apply, pay14_apply])]
  simp only [pay14_apply, pay15_apply, pay16_apply, pay17_apply, pay3_apply, pay4_apply, pay5_apply, pay6_apply,
    pay19_apply, pay20_apply, pay21_apply, pay22_apply, Ideal.ofBits_def, Ideal.ofBits_zero_f32]

end Cert.KernelIdeal.Val

end
-- ==== Proof.KernelValue.lean ====
/-
  The kernel's result array is the specification's cost array.

  At grid point t the output block's entry (r, tt) is the cost of query row 480·t + r against target tt: the block's
  value at an index is the cost of the input blocks' entries, and each entry is read from the argument arrays — the
  logits and boxes at batch row (b, q) with b·900 + q = 480·t + r, the targets' corners and centre/size form at tt, the
  one-hot column as the indicator of tt's label.  The 30 blocks tile the flat [14400, 1600] array, row r of it lying in
  block r / 480; so the array the pipeline writes back is the flat cost array, and the host reshape after the region
  sends (b, q, tt) to row b·900 + q, column tt of it.
-/
import proofs.«419403_j7387343749451_2_alg».proof.Proof.BlockEntries
import proofs.«419403_j7387343749451_2_alg».proof.Proof.BlockOut
import proofs.«419403_j7387343749451_2_alg».proof.Proof.BlockAt
import proofs.«419403_j7387343749451_2_alg».proof.Proof.Spec
import Idealize.ShloMosaic.Lib.Pipeline.Value
import Idealize.ShloMosaic.Lib.StableHlo.Run
import Idealize.ShloMosaic.Lib.Pipeline.FrameSuffix

set_option maxRecDepth 16384

noncomputable section

open scoped BigOperators

namespace Cert.KernelIdeal.Fr

open Cert.KernelIdeal.Gen Cert.KernelIdeal.Val Cert.CostSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The output block's entry (r, tt) at point t is the cost of batch row (b, q), b·900 + q = 480·t + r, against target tt. -/
theorem block_cost (c : Dev nD) (t : Fin cfg0.N) (r : Fin 480) (tt : Fin 1600) (b : Fin 16) (q : Fin 900)
    (hbq : b.val * 900 + q.val = t.val * 480 + r.val) :
    blockVal (F := Ideal) (iblk m c 0 t) (iblk m c 1 t) (iblk m c 2 t) (iblk m c 3 t) (iblk m c 4 t) (ix2 r tt)
      = costAt (m ((c : Thread nD τ).loc main_arg0)) (m ((c : Thread nD τ).loc main_arg1)) (m ((c : Thread nD τ).loc main_arg2)) (m ((c : Thread nD τ).loc main_arg3)) b q tt := by
  refine (blockVal_apply (iblk m c 0 t) (iblk m c 1 t) (iblk m c 2 t) (iblk m c 3 t) (iblk m c 4 t) r tt).trans ?_
  simp only [logits_entry m c t r _ b q hbq, boxes_entry m c t r _ b q hbq, corners_entry m c t, centres_entry m c t,
    onehot_entry m c t, centreTable_0, centreTable_1, centreTable_2, centreTable_3]
  rfl

/-- The flat cost array: row b·900 + q, column tt holds the cost of (b, q) against tt. -/
def Gflat (c : Dev nD) : S14400x1600.Idx → EReal := fun j =>
  costAt (m ((c : Thread nD τ).loc main_arg0)) (m ((c : Thread nD τ).loc main_arg1)) (m ((c : Thread nD τ).loc main_arg2)) (m ((c : Thread nD τ).loc main_arg3))
    ⟨(j 0).val / 900, by have h : (j 0).val < 14400 := (j 0).isLt; omega⟩
    ⟨(j 0).val % 900, by omega⟩ ⟨(j 1).val, (j 1).isLt⟩

/-- What point t writes back is block t of the flat cost array. -/
theorem flushed_eq (c : Dev nD) (t : Fin cfg0.N) :
    (dats m 0 c).flushed 5 t = ((cfg0.win 5).blk t).view.read (Elt Ideal) (Gflat m c) := by
  show (cfg0.win 5).cut (grid0.coords t) ((dats m 0 c).after 5 t) = _
  rw [after0_5]
  unfold outsAt0
  rw [out0_A_5_eq]
  funext y
  obtain ⟨-, -, -, -, -, -, -, -, -, -, e50, e51⟩ := idx_facts t
  have hy0 : (y 0).val < 480 := (y 0).isLt
  have hy1 : (y 1).val < 1600 := (y 1).isLt
  have ht : t.val < 30 := lt_of_lt_of_eq t.isLt N_0
  have hyeq : y = (ix2 (⟨(y 0).val, hy0⟩ : Fin 480) (⟨(y 1).val, hy1⟩ : Fin 1600) : S480x1600.Idx) := by
    funext a
    match a with
    | ⟨0, _⟩ => rfl
    | ⟨1, _⟩ => rfl
  have key : ∀ j : S14400x1600.Idx, (j 0).val = t.val * 480 + (y 0).val → (j 1).val = (y 1).val →
      blockVal (F := Ideal) (iblk m c 0 t) (iblk m c 1 t) (iblk m c 2 t) (iblk m c 3 t) (iblk m c 4 t) y = Gflat m c j := by
    intro j hj0 hj1
    have hj : (j 0).val < 14400 := (j 0).isLt
    have hb := block_cost m c t ⟨(y 0).val, hy0⟩ ⟨(y 1).val, hy1⟩ ⟨(j 0).val / 900, by omega⟩ ⟨(j 0).val % 900, by omega⟩
      (by show (j 0).val / 900 * 900 + (j 0).val % 900 = t.val * 480 + (y 0).val; omega)
    refine ((congrArg (blockVal (F := Ideal) (iblk m c 0 t) (iblk m c 1 t) (iblk m c 2 t) (iblk m c 3 t) (iblk m c 4 t)) hyeq).trans hb).trans ?_
    unfold Gflat
    rw [show (⟨(y 1).val, hy1⟩ : Fin 1600) = ⟨(j 1).val, (j 1).isLt⟩ from Fin.ext hj1.symm]
  exact key (((cfg0.win 5).blk t).view.emb y)
    (by show win0_5.index t (0 : Fin 2) * 480 + 1 * (y 0).val = _; omega)
    (by show win0_5.index t (1 : Fin 2) * 1600 + 1 * (y 1).val = _; omega)

/-- An index of the flat array is in point t's block iff each coordinate is in the block's range on its axis. -/
theorem mem_blk (t : Fin cfg0.N) (i : S14400x1600.Idx) :
    i ∈ ((cfg0.win 5).blk t).view.set ↔ ∀ a : Fin 2, win0_5.index t a * S480x1600.size a ≤ (i a).val ∧ (i a).val < win0_5.index t a * S480x1600.size a + S480x1600.size a := by
  show i ∈ ((View.whole main_v24).slice (win0_5.rect t)).set ↔ _
  rw [View.set_slice_whole, Rect.mem_set_unit]
  exact Iff.rfl

/-- Every index of the flat array is in some point's block: row r lies in block r / 480. -/
theorem cover (i : S14400x1600.Idx) : ∃ t : Fin cfg0.N, (cfg0.win 5).flush t = true ∧ i ∈ ((cfg0.win 5).blk t).view.set := by
  have hi0 : (i 0).val < 14400 := (i 0).isLt
  have hi1 : (i 1).val < 1600 := (i 1).isLt
  refine ⟨⟨(i 0).val / 480, lt_of_lt_of_eq (show (i 0).val / 480 < 30 by omega) N_0.symm⟩, flush0_5 _, ?_⟩
  rw [mem_blk]
  obtain ⟨-, -, -, -, -, -, -, -, -, -, e50, e51⟩ := idx_facts ⟨(i 0).val / 480, lt_of_lt_of_eq (show (i 0).val / 480 < 30 by omega) N_0.symm⟩
  intro a
  match a with
  | ⟨0, _⟩ => show win0_5.index _ (0 : Fin 2) * 480 ≤ (i 0).val ∧ (i 0).val < win0_5.index _ (0 : Fin 2) * 480 + 480; rw [e50]; show (i 0).val / 480 * 480 ≤ (i 0).val ∧ (i 0).val < (i 0).val / 480 * 480 + 480; omega
  | ⟨1, _⟩ => show win0_5.index _ (1 : Fin 2) * 1600 ≤ (i 1).val ∧ (i 1).val < win0_5.index _ (1 : Fin 2) * 1600 + 1600; rw [e51]; omega

/-- The array the pipeline writes back is the flat cost array. -/
theorem final (c : Dev nD) : (dats m 0 c).arrAt 5 cfg0.N = Gflat m c :=
  (dats m 0 c).arrAt_eq_of_cover 5 (Gflat m c) (fun t _ => flushed_eq m c t) cover

/-- The result buffer after the host reshape that follows the region is the specification's cost array. -/
theorem tail_result (c : Dev nD) :
    Pipeline.afterTail₀ cfgs (dats m) 0 (V0 m) [hostOps1] c main_v25 = G (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v25) = _
  after_results
  have hw : Pipeline.withArrays (cfgs 0).spec c (V0 m c) (fun w => (dats m 0 c).arrAt w (cfgs 0).N) (Proc.devRef .tc main_v24) = Gflat m c :=
    (Pipeline.withArrays_arr spec0 launch0.win.arr_inj c _ _ 5).trans (final m c)
  rw [hw]
  funext i
  obtain ⟨b, q, t, rfl⟩ : ∃ (b : Fin 16) (q : Fin 900) (t : Fin 1600), i = ix3 b q t := ⟨i 0, i 1, i 2, eq_ix3 i⟩
  show shapeCast S16x900x1600 (Gflat m c) shapeCasts_S14400x1600_S16x900x1600 (ix3 b q t) = _
  have hq := q.isLt
  have hb := b.isLt
  refine (shapeCast_apply _ _ _ (ix2 (⟨b.val * 900 + q.val, by omega⟩ : Fin 14400) t) ?_).trans ?_
  · show (S14400x1600.rowMajor _).val = (S16x900x1600.rowMajor _).val
    rw [Shape.rowMajor_val_two, Shape.rowMajor_val_three]
    rfl
  · unfold Gflat G
    congr 1
    · exact Fin.ext (by show (b.val * 900 + q.val) / 900 = b.val; omega)
    · exact Fin.ext (by show (b.val * 900 + q.val) % 900 = q.val; omega)

/-- From any memory with zero counters every weakly fair execution of the idealized program terminates with the result
    buffer at the specification's cost array of the arguments, and the arguments as launched. -/
theorem result (ρ : Dev nD → PrngReg) :
    θ_run defs (onTc (τ := τ) (main (F := Ideal))) ⟨m, fun _ => 0, ρ⟩ (fun r => ∀ c : Dev nD,
      r.2.mem ((c.tc : Thread nD τ).loc main_v25) = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v25 (Pipeline.mem_restRefs_of main_v25 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Fr
end
-- ==== Proof.Row.lean ====
/-
  Query row (b, q) of the batch as a row of the flattened predictions.
-/
import Idealize.ShloMosaic.Lib.ValueIdx

namespace Cert.CostSpec

/-- Query row `b * 900 + q` of the flattened predictions. -/
abbrev row (b : Fin 16) (q : Fin 900) : Fin 14400 := ⟨b.val * 900 + q.val, by have := b.isLt; have := q.isLt; omega⟩

end Cert.CostSpec
-- ==== Proof.RefClass.lean ====
/-
  The reference's gathered class cost at (row, target) is the focal difference at the label's logit, for a label inside
  the class range.
-/
import proofs.«419403_j7387343749451_2_alg».proof.Proof.Gen.ReferenceIdeal.Read
import proofs.«419403_j7387343749451_2_alg».proof.Proof.Spec
import Idealize.ShloMosaic.Lib.ValueIdx
import Idealize.ShloMosaic.Lib.Pipeline.Value
import Idealize.ShloMosaic.PureOps.Ideal.Laws
import proofs.«419403_j7387343749451_2_alg».proof.Proof.Row

noncomputable section

open scoped BigOperators

namespace Cert.ReferenceIdeal.RefVal

open Cert.ReferenceIdeal Cert.ReferenceIdeal.Gen Cert.ReferenceIdeal.Read
open Idealize.ShloMosaic Idealize.ShloMosaic.ValueIdx Cert.CostSpec

/-! ## The gather read at an index -/

/-- The gather at (r, t): the operand at row r and at the start index of target t, read signed and clamped into
    [0, 79]. Axis 0 is the one offset axis (the whole column of 14400 rows is the slice), axis 1 is collapsed and is the
    one axis the start index names. -/
private theorem gather_at {α : Type} (x : S14400x80.Idx → α) (idx : IVec S1600x1 32) (r : Fin 14400) (t : Fin 1600) :
    Host.gather gather_S14400x80_S1600x1_S14400x1600_0_1_n_n_1_1_144001 x idx (ix2 r t)
      = x (ix2 r ⟨min (idx (ix2 t (0 : Fin 1))).toInt.toNat 79, by omega⟩) := by
  unfold Host.gather
  congr 1
  funext a
  refine Fin.ext ?_
  match a with
  | ⟨0, _⟩ =>
    show GatherDims.start _ (ix2 r t) idx 0 + GatherDims.batchCoord _ (ix2 r t) 0 + GatherDims.offCoord _ (ix2 r t) 0 = r.val
    rw [GatherDims.batchCoord_eq_zero _ _ _ List.not_mem_nil]
    unfold GatherDims.start
    rw [dif_neg (show (0 : Fin 2) ∉ gather_S14400x80_S1600x1_S14400x1600_0_1_n_n_1_1_144001.startIndexMap from by
      show (0 : Fin 2) ∉ [(1 : Fin 2)]; decide)]
    unfold GatherDims.offCoord
    rw [dif_pos (show (0 : Fin 2) ∈ gather_S14400x80_S1600x1_S14400x1600_0_1_n_n_1_1_144001.sKept from by
      show (0 : Fin 2) ∈ [(0 : Fin 2)]; decide)]
    rw [Nat.add_zero, Nat.zero_add]
    rfl
  | ⟨1, _⟩ =>
    show GatherDims.start _ (ix2 r t) idx 1 + GatherDims.batchCoord _ (ix2 r t) 1 + GatherDims.offCoord _ (ix2 r t) 1
      = min (idx (ix2 t (0 : Fin 1))).toInt.toNat 79
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S14400x80_S1600x1_S14400x1600_0_1_n_n_1_1_144001.startIndexMap from
      List.mem_singleton.mpr rfl)]
    have hsi : gather_S14400x80_S1600x1_S14400x1600_0_1_n_n_1_1_144001.siIdx (ix2 r t)
        ⟨List.idxOf (1 : Fin 2) gather_S14400x80_S1600x1_S14400x1600_0_1_n_n_1_1_144001.startIndexMap,
          List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl

/-! ## The start index of a label inside the class range -/

/-- A word below 80 is not negative read signed. -/
private theorem slt_zero_of_lt (a : BitVec 32) (h : a.toNat < 80) : IntOp.cmpi .slt a 0#32 = 0#1 := by
  have hi : a.toInt = (a.toNat : Int) := BitVec.toInt_eq_toNat_of_lt (by omega)
  have hs : a.slt 0#32 = false := by
    rw [BitVec.slt, hi]
    simp
  unfold IntOp.cmpi
  rw [hs]
  rfl

/-- A word below 80 read signed is its natural number. -/
private theorem toInt_toNat_of_lt (a : BitVec 32) (h : a.toNat < 80) : a.toInt.toNat = a.toNat := by
  rw [BitVec.toInt_eq_toNat_of_lt (by omega), Int.toNat_natCast]

/-- The wrapped label of target t is the label itself when it is below 80: the signed comparison with zero fails and
    the select keeps the label. -/
private theorem label_at (x3 : (⟨S1600, .i32⟩ : BufTy).Contents (Elt Ideal)) (t : Fin 1600) (h : (x3 (ix1 t)).toNat < 80) :
    val_main_v36 (F := Ideal) x3 (ix2 t (0 : Fin 1)) = x3 (ix1 t) := by
  have hi : idx_main_v36 (ix2 t (0 : Fin 1)) = ix1 t := by
    funext a; match a with | ⟨0, _⟩ => rfl
  rw [val_main_v36_apply, hi, val_main_v35_apply, val_main_v32_apply, val_main_v31_apply, val_main_c_apply,
    slt_zero_of_lt _ h, select_zero]

/-! ## Row (b, q), class k of the flattened logits -/

/-- Row b·900 + q, column k of the [14400, 80] array is element (b, q, k) of the [16, 900, 80] one. -/
private theorem idx_at (b : Fin 16) (q : Fin 900) (k : Fin 80) : idx_main_v0 (ix2 (row b q) k) = ix3 b q k := by
  funext a
  match a with
  | ⟨0, _⟩ =>
    refine Fin.ext ?_
    show ((b.val * 900 + q.val) * 80 + k.val) / 72000 = b.val
    have := b.isLt; have := q.isLt; have := k.isLt; omega
  | ⟨1, _⟩ =>
    refine Fin.ext ?_
    show ((b.val * 900 + q.val) * 80 + k.val) / 80 % 900 = q.val
    have := b.isLt; have := q.isLt; have := k.isLt; omega
  | ⟨2, _⟩ =>
    refine Fin.ext ?_
    show ((b.val * 900 + q.val) * 80 + k.val) % 80 = k.val
    have := b.isLt; have := q.isLt; have := k.isLt; omega

/-! ## The reference's spelling of the focal difference -/

/-- The word 0x3F800000 is the number one. -/
private theorem one_eq : (one : EReal) = 1 := by
  show Ideal.ofBits .f32 0x3F800000#32 = 1
  simp [Ideal.ofBits, Ideal.ieee, -EReal.coe_mul]
  norm_num

/-- The word 0x40000000 is the number two. -/
private theorem two_eq : (two : EReal) = ((2 : ℝ) : EReal) := by
  show Ideal.ofBits .f32 0x40000000#32 = _
  simp [Ideal.ofBits, Ideal.ieee, -EReal.coe_mul]
  norm_num

/-- The logistic of an extended real is a real: 0 at −∞, 1 at +∞, 1 / (1 + e^(−r)) at a real r. -/
private theorem logistic_real (x : EReal) : ∃ r : ℝ, Ideal.logistic x = (r : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The power with exponent two of a real is its square. -/
private theorem pow_two_real (r : ℝ) : Ideal.pow (r : EReal) two = (r : EReal) * (r : EReal) := by
  rw [two_eq, Ideal.pow_coe_coe, ← EReal.coe_mul]
  congr 1
  show r ^ (2 : ℝ) = r * r
  rw [Real.rpow_two, pow_two]

/-- The reference's expression at a logit x — the sigmoid spelt 1 / (1 + e^(−x)), the squares as powers with exponent
    two, the negations as −y — is the specification's focal difference. -/
private theorem focal_spelling (x : EReal) :
    (quarter * Ideal.pow (one - Ideal.div one (one + Ideal.exp (-x))) two)
          * -(Ideal.log (Ideal.div one (one + Ideal.exp (-x)) + eps))
        - (threeQuarters * Ideal.pow (Ideal.div one (one + Ideal.exp (-x))) two)
          * -(Ideal.log (one - Ideal.div one (one + Ideal.exp (-x)) + eps))
      = focal x := by
  have hp : Ideal.div one (one + Ideal.exp (-x)) = Ideal.logistic x := by rw [one_eq]; rfl
  obtain ⟨r, hr⟩ := logistic_real x
  have hq : one - Ideal.logistic x = ((1 - r : ℝ) : EReal) := by
    rw [hr, one_eq, ← EReal.coe_one, ← EReal.coe_sub]
  unfold focal
  rw [hp, hq, hr, pow_two_real, pow_two_real, zero_sub, zero_sub]

/-- The reference's focal difference on the flattened logits, at an index. -/
private theorem focal_at (x0 : (⟨S16x900x80, .f32⟩ : BufTy).Contents (Elt Ideal)) (i : S14400x80.Idx) :
    val_main_v30 (F := Ideal) x0 i = focal (x0 (idx_main_v0 i)) := by
  simp only [val_main_v30_apply, val_main_v29_apply, val_main_v28_apply, val_main_v27_apply, val_main_v26_apply,
    val_main_v25_apply, val_main_cst_8_apply, val_main_v24_apply, val_main_v23_apply, val_main_cst_7_apply,
    val_main_v22_apply, val_main_v21_apply, val_main_cst_6_apply, val_main_v20_apply, val_main_v19_apply,
    val_main_cst_5_apply, val_main_v18_apply, val_main_v17_apply, val_main_v16_apply, val_main_v15_apply,
    val_main_v14_apply, val_main_cst_4_apply, val_main_v13_apply, val_main_v12_apply, val_main_cst_3_apply,
    val_main_v11_apply, val_main_v10_apply, val_main_cst_2_apply, val_main_v9_apply, val_main_v8_apply,
    val_main_cst_1_apply, val_main_v6_apply, val_main_v5_apply, val_main_cst_0_apply, val_main_v4_apply,
    val_main_v3_apply, val_main_cst_apply, val_main_v2_apply, val_main_v1_apply, val_main_v0_apply]
  exact focal_spelling (x0 (idx_main_v0 i))

/-! ## The gathered class cost -/

theorem gather_apply (x0 : (⟨S16x900x80, .f32⟩ : BufTy).Contents (Elt Ideal)) (x3 : (⟨S1600, .i32⟩ : BufTy).Contents (Elt Ideal))
    (hL : ∀ t : Fin 1600, (x3 (ix1 t)).toNat < 80) (b : Fin 16) (q : Fin 900) (t : Fin 1600) :
    val_main_v37 (F := Ideal) x0 x3 (ix2 (row b q) t) = focal (x0 (ix3 b q ⟨(x3 (ix1 t)).toNat, hL t⟩)) := by
  have hk : (⟨min (val_main_v36 (F := Ideal) x3 (ix2 t (0 : Fin 1))).toInt.toNat 79, by omega⟩ : Fin 80)
      = ⟨(x3 (ix1 t)).toNat, hL t⟩ := by
    refine Fin.ext ?_
    show min (val_main_v36 (F := Ideal) x3 (ix2 t (0 : Fin 1))).toInt.toNat 79 = (x3 (ix1 t)).toNat
    rw [label_at x3 t (hL t), toInt_toNat_of_lt _ (hL t)]
    have := hL t; omega
  unfold val_main_v37
  rw [gather_at, hk, focal_at, idx_at]

end Cert.ReferenceIdeal.RefVal

end
-- ==== Proof.RefL1.lean ====
/-
  The reference's summed absolute box differences at (row, target) is the L1 term of the specification.
-/
import proofs.«419403_j7387343749451_2_alg».proof.Proof.Gen.ReferenceIdeal.Read
import proofs.«419403_j7387343749451_2_alg».proof.Proof.Spec
import Idealize.ShloMosaic.Lib.ValueIdx
import Idealize.ShloMosaic.Lib.Pipeline.Value
import Idealize.ShloMosaic.PureOps.Ideal.Laws
import proofs.«419403_j7387343749451_2_alg».proof.Proof.Row

noncomputable section

open scoped BigOperators

namespace Cert.ReferenceIdeal.RefVal

open Cert.ReferenceIdeal Cert.ReferenceIdeal.Gen Cert.ReferenceIdeal.Read
open Idealize.ShloMosaic Idealize.ShloMosaic.ValueIdx Cert.CostSpec

/-! ### The targets' corner columns

Each of the four slices of the target array is a single column: at row `t` it reads the target's corner coordinate of
that column. -/

/-- The first slice at row `t` is the target's left edge. -/
private theorem l1_slice0_apply (x2 : (⟨S1600x4, .f32⟩ : BufTy).Contents (Elt Ideal)) (t : Fin 1600) :
    val_main_v38 (F := Ideal) x2 (ix2 t (0 : Fin 1)) = x2 (ix2 t (0 : Fin 4)) := by
  rw [val_main_v38_apply]
  exact congrArg x2 (funext fun a => Fin.ext (by match a with | ⟨0, _⟩ => rfl | ⟨1, _⟩ => rfl))

/-- The second slice at row `t` is the target's top edge. -/
private theorem l1_slice1_apply (x2 : (⟨S1600x4, .f32⟩ : BufTy).Contents (Elt Ideal)) (t : Fin 1600) :
    val_main_v39 (F := Ideal) x2 (ix2 t (0 : Fin 1)) = x2 (ix2 t (1 : Fin 4)) := by
  rw [val_main_v39_apply]
  exact congrArg x2 (funext fun a => Fin.ext (by match a with | ⟨0, _⟩ => rfl | ⟨1, _⟩ => rfl))

/-- The third slice at row `t` is the target's right edge. -/
private theorem l1_slice2_apply (x2 : (⟨S1600x4, .f32⟩ : BufTy).Contents (Elt Ideal)) (t : Fin 1600) :
    val_main_v40 (F := Ideal) x2 (ix2 t (0 : Fin 1)) = x2 (ix2 t (2 : Fin 4)) := by
  rw [val_main_v40_apply]
  exact congrArg x2 (funext fun a => Fin.ext (by match a with | ⟨0, _⟩ => rfl | ⟨1, _⟩ => rfl))

/-- The fourth slice at row `t` is the target's bottom edge. -/
private theorem l1_slice3_apply (x2 : (⟨S1600x4, .f32⟩ : BufTy).Contents (Elt Ideal)) (t : Fin 1600) :
    val_main_v41 (F := Ideal) x2 (ix2 t (0 : Fin 1)) = x2 (ix2 t (3 : Fin 4)) := by
  rw [val_main_v41_apply]
  exact congrArg x2 (funext fun a => Fin.ext (by match a with | ⟨0, _⟩ => rfl | ⟨1, _⟩ => rfl))

/-! ### The joined centre/size array, column by column

The four single-column arrays are laid side by side along the second axis; each has extent one there, so column `k` of
the result lies in the span of piece `k` (the `k` pieces before it cover columns `0 … k − 1`) at that piece's only
column. -/

/-- Column 0 of the joined array is the first piece. -/
private theorem l1_cat0_apply (x2 : (⟨S1600x4, .f32⟩ : BufTy).Contents (Elt Ideal)) (t : Fin 1600) :
    val_main_v50 (F := Ideal) x2 (ix2 t (0 : Fin 4)) = val_main_v44 (F := Ideal) x2 (ix2 t (0 : Fin 1)) := by
  unfold val_main_v50
  refine concatenate_apply_piece (1 : Fin S1600x4.rank) _ _ (ix2 t (0 : Fin 4)) 0 (by simp) S1600x1 _ rfl rfl 0 rfl
    (ix2 t (0 : Fin 1)) ?_ rfl
  intro b hb
  match b, hb with
  | ⟨0, _⟩, _ => rfl
  | ⟨1, _⟩, hb => exact absurd rfl hb

/-- Column 1 of the joined array is the second piece. -/
private theorem l1_cat1_apply (x2 : (⟨S1600x4, .f32⟩ : BufTy).Contents (Elt Ideal)) (t : Fin 1600) :
    val_main_v50 (F := Ideal) x2 (ix2 t (1 : Fin 4)) = val_main_v47 (F := Ideal) x2 (ix2 t (0 : Fin 1)) := by
  unfold val_main_v50
  refine concatenate_apply_piece (1 : Fin S1600x4.rank) _ _ (ix2 t (1 : Fin 4)) 1 (by simp) S1600x1 _ rfl rfl 1 rfl
    (ix2 t (0 : Fin 1)) ?_ rfl
  intro b hb
  match b, hb with
  | ⟨0, _⟩, _ => rfl
  | ⟨1, _⟩, hb => exact absurd rfl hb

/-- Column 2 of the joined array is the third piece. -/
private theorem l1_cat2_apply (x2 : (⟨S1600x4, .f32⟩ : BufTy).Contents (Elt Ideal)) (t : Fin 1600) :
    val_main_v50 (F := Ideal) x2 (ix2 t (2 : Fin 4)) = val_main_v48 (F := Ideal) x2 (ix2 t (0 : Fin 1)) := by
  unfold val_main_v50
  refine concatenate_apply_piece (1 : Fin S1600x4.rank) _ _ (ix2 t (2 : Fin 4)) 2 (by simp) S1600x1 _ rfl rfl 2 rfl
    (ix2 t (0 : Fin 1)) ?_ rfl
  intro b hb
  match b, hb with
  | ⟨0, _⟩, _ => rfl
  | ⟨1, _⟩, hb => exact absurd rfl hb

/-- Column 3 of the joined array is the fourth piece. -/
private theorem l1_cat3_apply (x2 : (⟨S1600x4, .f32⟩ : BufTy).Contents (Elt Ideal)) (t : Fin 1600) :
    val_main_v50 (F := Ideal) x2 (ix2 t (3 : Fin 4)) = val_main_v49 (F := Ideal) x2 (ix2 t (0 : Fin 1)) := by
  unfold val_main_v50
  refine concatenate_apply_piece (1 : Fin S1600x4.rank) _ _ (ix2 t (3 : Fin 4)) 3 (by simp) S1600x1 _ rfl rfl 3 rfl
    (ix2 t (0 : Fin 1)) ?_ rfl
  intro b hb
  match b, hb with
  | ⟨0, _⟩, _ => rfl
  | ⟨1, _⟩, hb => exact absurd rfl hb

/-- Column 0 of the joined array is the target's centre abscissa. -/
private theorem l1_tgt0_apply (x2 : (⟨S1600x4, .f32⟩ : BufTy).Contents (Elt Ideal)) (t : Fin 1600) :
    val_main_v50 (F := Ideal) x2 (ix2 t (0 : Fin 4)) = (x2 (ix2 t (0 : Fin 4)) + x2 (ix2 t (2 : Fin 4))) * half := by
  rw [l1_cat0_apply, val_main_v44_apply, val_main_v42_apply, val_main_v43_apply, val_main_cst_10_apply, l1_slice0_apply,
    l1_slice2_apply]
  rfl

/-- Column 1 of the joined array is the target's centre ordinate. -/
private theorem l1_tgt1_apply (x2 : (⟨S1600x4, .f32⟩ : BufTy).Contents (Elt Ideal)) (t : Fin 1600) :
    val_main_v50 (F := Ideal) x2 (ix2 t (1 : Fin 4)) = (x2 (ix2 t (1 : Fin 4)) + x2 (ix2 t (3 : Fin 4))) * half := by
  rw [l1_cat1_apply, val_main_v47_apply, val_main_v45_apply, val_main_v46_apply, val_main_cst_11_apply, l1_slice1_apply,
    l1_slice3_apply]
  rfl

/-- Column 2 of the joined array is the target's width. -/
private theorem l1_tgt2_apply (x2 : (⟨S1600x4, .f32⟩ : BufTy).Contents (Elt Ideal)) (t : Fin 1600) :
    val_main_v50 (F := Ideal) x2 (ix2 t (2 : Fin 4)) = x2 (ix2 t (2 : Fin 4)) - x2 (ix2 t (0 : Fin 4)) := by
  rw [l1_cat2_apply, val_main_v48_apply, l1_slice2_apply, l1_slice0_apply]
  rfl

/-- Column 3 of the joined array is the target's height. -/
private theorem l1_tgt3_apply (x2 : (⟨S1600x4, .f32⟩ : BufTy).Contents (Elt Ideal)) (t : Fin 1600) :
    val_main_v50 (F := Ideal) x2 (ix2 t (3 : Fin 4)) = x2 (ix2 t (3 : Fin 4)) - x2 (ix2 t (1 : Fin 4)) := by
  rw [l1_cat3_apply, val_main_v49_apply, l1_slice3_apply, l1_slice1_apply]
  rfl

/-! ### The two broadcast operands of the difference -/

/-- The predictions, flattened to rows and repeated along the target axis: at (row (b, q), t, k) the prediction's
    coordinate `k`. The flat position of (b·900 + q, k) in the [14400, 4] array is (b·900 + q)·4 + k, which is the flat
    position of (b, q, k) in the [16, 900, 4] array. -/
private theorem l1_pred_apply (x1 : (⟨S16x900x4, .f32⟩ : BufTy).Contents (Elt Ideal)) (b : Fin 16) (q : Fin 900) (t : Fin 1600) (k : Fin 4) :
    val_main_v53 (F := Ideal) x1 (ix3 (row b q) t k) = x1 (ix3 b q k) := by
  rw [val_main_v53_apply, val_main_v51_apply, val_main_v7_apply]
  refine congrArg x1 (funext fun a => Fin.ext ?_)
  have hb : b.val < 16 := b.isLt
  have hq : q.val < 900 := q.isLt
  have hk : k.val < 4 := k.isLt
  match a with
  | ⟨0, _⟩ => show ((b.val * 900 + q.val) * 4 + k.val) / 3600 = b.val; omega
  | ⟨1, _⟩ => show ((b.val * 900 + q.val) * 4 + k.val) / 4 % 900 = q.val; omega
  | ⟨2, _⟩ => show ((b.val * 900 + q.val) * 4 + k.val) % 4 = k.val; omega

/-- The joined target array repeated along the row axis: at (r, t, k) its entry (t, k). -/
private theorem l1_tgt_bcast_apply (x2 : (⟨S1600x4, .f32⟩ : BufTy).Contents (Elt Ideal)) (r : Fin 14400) (t : Fin 1600) (k : Fin 4) :
    val_main_v54 (F := Ideal) x2 (ix3 r t k) = val_main_v50 (F := Ideal) x2 (ix2 t k) := by
  rw [val_main_v54_apply, val_main_v52_apply]
  exact congrArg (val_main_v50 (F := Ideal) x2) (funext fun a => Fin.ext (by match a with | ⟨0, _⟩ => rfl | ⟨1, _⟩ => rfl))

/-- One absolute difference: the prediction's coordinate `k` against column `k` of the targets' centre/size form. -/
private theorem l1_absdiff_apply (x1 : (⟨S16x900x4, .f32⟩ : BufTy).Contents (Elt Ideal)) (x2 : (⟨S1600x4, .f32⟩ : BufTy).Contents (Elt Ideal)) (b : Fin 16) (q : Fin 900) (t : Fin 1600) (k : Fin 4) :
    val_main_v56 (F := Ideal) x1 x2 (ix3 (row b q) t k)
      = absE (x1 (ix3 b q k) - val_main_v50 (F := Ideal) x2 (ix2 t k)) := by
  rw [val_main_v56_apply, val_main_v55_apply, l1_pred_apply, l1_tgt_bcast_apply]
  rfl

/-- The index the sum over the last axis reads at is (row, target, k). -/
private theorem l1_sum_idx (r : Fin 14400) (t : Fin 1600) (k : Fin 4) : idx_main_v57 (ix2 r t) k = ix3 r t k :=
  funext fun a => Fin.ext (by match a with | ⟨0, _⟩ => rfl | ⟨1, _⟩ => rfl | ⟨2, _⟩ => rfl)

/-- The reference's L1 box cost at (row (b, q), target t): zero plus the four absolute differences, added left to
    right, which is the specification's L1 term at the prediction's box and the target's centre/size form. -/
theorem l1_apply (x1 : (⟨S16x900x4, .f32⟩ : BufTy).Contents (Elt Ideal)) (x2 : (⟨S1600x4, .f32⟩ : BufTy).Contents (Elt Ideal))
    (b : Fin 16) (q : Fin 900) (t : Fin 1600) :
    val_main_v57 (F := Ideal) x1 x2 (ix2 (row b q) t)
      = l1 (x1 (ix3 b q (0 : Fin 4))) (x1 (ix3 b q (1 : Fin 4))) (x1 (ix3 b q (2 : Fin 4))) (x1 (ix3 b q (3 : Fin 4)))
          ((x2 (ix2 t (0 : Fin 4)) + x2 (ix2 t (2 : Fin 4))) * half) ((x2 (ix2 t (1 : Fin 4)) + x2 (ix2 t (3 : Fin 4))) * half)
          (x2 (ix2 t (2 : Fin 4)) - x2 (ix2 t (0 : Fin 4))) (x2 (ix2 t (3 : Fin 4)) - x2 (ix2 t (1 : Fin 4))) := by
  rw [val_main_v57_apply, Fin.sum_univ_four, l1_sum_idx, l1_sum_idx, l1_sum_idx, l1_sum_idx, l1_absdiff_apply, l1_absdiff_apply,
    l1_absdiff_apply, l1_absdiff_apply, l1_tgt0_apply, l1_tgt1_apply, l1_tgt2_apply, l1_tgt3_apply, val_main_cst_12_apply]
  show Ideal.ofBits .f32 0x00000000#32 + _ = _
  rw [Ideal.ofBits_zero_f32, zero_add]
  rfl

end Cert.ReferenceIdeal.RefVal

end
-- ==== Proof.RefGiou.lean ====
/-
  The reference's generalized overlap at (row, target) is the overlap term of the specification.
-/
import proofs.«419403_j7387343749451_2_alg».proof.Proof.Gen.ReferenceIdeal.Read
import proofs.«419403_j7387343749451_2_alg».proof.Proof.Spec
import Idealize.ShloMosaic.Lib.ValueIdx
import Idealize.ShloMosaic.Lib.Pipeline.Value
import Idealize.ShloMosaic.PureOps.Ideal.Laws
import proofs.«419403_j7387343749451_2_alg».proof.Proof.Row

noncomputable section

open scoped BigOperators

namespace Cert.ReferenceIdeal.RefVal

open Cert.ReferenceIdeal Cert.ReferenceIdeal.Gen Cert.ReferenceIdeal.Read
open Idealize.ShloMosaic Idealize.ShloMosaic.ValueIdx Cert.CostSpec

namespace Giou

/-! ## The prediction's corner form

Row (b, q) of the flattened predictions holds the prediction's four coordinates; the four corner columns are
px ∓ ½ pw and py ∓ ½ ph, and the concatenation's column j is the j-th of them. -/

/-- The flattened predictions at row (b, q), column c: the prediction's coordinate c. -/
theorem v7_at (x1 : (⟨S16x900x4, .f32⟩ : BufTy).Contents (Elt Ideal)) (b : Fin 16) (q : Fin 900) (c : Fin 4) :
    val_main_v7 (F := Ideal) x1 (ix2 (row b q) c) = x1 (ix3 b q c) := by
  rw [val_main_v7_apply]
  congr 1
  have hb := b.isLt
  have hq := q.isLt
  have hc := c.isLt
  funext a
  match a with
  | ⟨0, _⟩ => apply Fin.ext; show ((b.val * 900 + q.val) * 4 + c.val) / 3600 = b.val; omega
  | ⟨1, _⟩ => apply Fin.ext; show ((b.val * 900 + q.val) * 4 + c.val) / 4 % 900 = q.val; omega
  | ⟨2, _⟩ => apply Fin.ext; show ((b.val * 900 + q.val) * 4 + c.val) % 4 = c.val; omega

/-- Column 0 of the flattened predictions, as a one-column array. -/
theorem v58_at (x1 : (⟨S16x900x4, .f32⟩ : BufTy).Contents (Elt Ideal)) (r : Fin 14400) :
    val_main_v58 (F := Ideal) x1 (ix2 r (0 : Fin 1)) = val_main_v7 (F := Ideal) x1 (ix2 r (0 : Fin 4)) := by
  rw [val_main_v58_apply]
  exact congrArg _ (funext fun a => match a with | ⟨0, _⟩ => rfl | ⟨1, _⟩ => rfl)

/-- Column 1 of the flattened predictions, as a one-column array. -/
theorem v59_at (x1 : (⟨S16x900x4, .f32⟩ : BufTy).Contents (Elt Ideal)) (r : Fin 14400) :
    val_main_v59 (F := Ideal) x1 (ix2 r (0 : Fin 1)) = val_main_v7 (F := Ideal) x1 (ix2 r (1 : Fin 4)) := by
  rw [val_main_v59_apply]
  exact congrArg _ (funext fun a => match a with | ⟨0, _⟩ => rfl | ⟨1, _⟩ => rfl)

/-- Column 2 of the flattened predictions, as a one-column array. -/
theorem v60_at (x1 : (⟨S16x900x4, .f32⟩ : BufTy).Contents (Elt Ideal)) (r : Fin 14400) :
    val_main_v60 (F := Ideal) x1 (ix2 r (0 : Fin 1)) = val_main_v7 (F := Ideal) x1 (ix2 r (2 : Fin 4)) := by
  rw [val_main_v60_apply]
  exact congrArg _ (funext fun a => match a with | ⟨0, _⟩ => rfl | ⟨1, _⟩ => rfl)

/-- Column 3 of the flattened predictions, as a one-column array. -/
theorem v61_at (x1 : (⟨S16x900x4, .f32⟩ : BufTy).Contents (Elt Ideal)) (r : Fin 14400) :
    val_main_v61 (F := Ideal) x1 (ix2 r (0 : Fin 1)) = val_main_v7 (F := Ideal) x1 (ix2 r (3 : Fin 4)) := by
  rw [val_main_v61_apply]
  exact congrArg _ (funext fun a => match a with | ⟨0, _⟩ => rfl | ⟨1, _⟩ => rfl)

/-- The broadcast constant one half. -/
theorem v62_at (i : S14400x1.Idx) : val_main_v62 (F := Ideal) i = half := by
  rw [val_main_v62_apply]; rfl

/-- The broadcast constant one half. -/
theorem v65_at (i : S14400x1.Idx) : val_main_v65 (F := Ideal) i = half := by
  rw [val_main_v65_apply]; rfl

/-- The broadcast constant one half. -/
theorem v68_at (i : S14400x1.Idx) : val_main_v68 (F := Ideal) i = half := by
  rw [val_main_v68_apply]; rfl

/-- The broadcast constant one half. -/
theorem v71_at (i : S14400x1.Idx) : val_main_v71 (F := Ideal) i = half := by
  rw [val_main_v71_apply]; rfl

/-- A corner column at a row: coordinate 0 less one half of coordinate 2. -/
theorem v64_at (x1 : (⟨S16x900x4, .f32⟩ : BufTy).Contents (Elt Ideal)) (r : Fin 14400) :
    val_main_v64 (F := Ideal) x1 (ix2 r (0 : Fin 1)) = val_main_v7 (F := Ideal) x1 (ix2 r (0 : Fin 4)) - half * val_main_v7 (F := Ideal) x1 (ix2 r (2 : Fin 4)) := by
  rw [val_main_v64_apply, val_main_v63_apply, v58_at, v60_at, v62_at]
  rfl

/-- A corner column at a row: coordinate 1 less one half of coordinate 3. -/
theorem v67_at (x1 : (⟨S16x900x4, .f32⟩ : BufTy).Contents (Elt Ideal)) (r : Fin 14400) :
    val_main_v67 (F := Ideal) x1 (ix2 r (0 : Fin 1)) = val_main_v7 (F := Ideal) x1 (ix2 r (1 : Fin 4)) - half * val_main_v7 (F := Ideal) x1 (ix2 r (3 : Fin 4)) := by
  rw [val_main_v67_apply, val_main_v66_apply, v59_at, v61_at, v65_at]
  rfl

/-- A corner column at a row: coordinate 0 plus one half of coordinate 2. -/
theorem v70_at (x1 : (⟨S16x900x4, .f32⟩ : BufTy).Contents (Elt Ideal)) (r : Fin 14400) :
    val_main_v70 (F := Ideal) x1 (ix2 r (0 : Fin 1)) = val_main_v7 (F := Ideal) x1 (ix2 r (0 : Fin 4)) + half * val_main_v7 (F := Ideal) x1 (ix2 r (2 : Fin 4)) := by
  rw [val_main_v70_apply, val_main_v69_apply, v58_at, v60_at, v68_at]
  rfl

/-- A corner column at a row: coordinate 1 plus one half of coordinate 3. -/
theorem v73_at (x1 : (⟨S16x900x4, .f32⟩ : BufTy).Contents (Elt Ideal)) (r : Fin 14400) :
    val_main_v73 (F := Ideal) x1 (ix2 r (0 : Fin 1)) = val_main_v7 (F := Ideal) x1 (ix2 r (1 : Fin 4)) + half * val_main_v7 (F := Ideal) x1 (ix2 r (3 : Fin 4)) := by
  rw [val_main_v73_apply, val_main_v72_apply, v59_at, v61_at, v71_at]
  rfl

/-- Column 0 of the concatenation is the first corner column. -/
theorem v74_c0 (x1 : (⟨S16x900x4, .f32⟩ : BufTy).Contents (Elt Ideal)) (r : Fin 14400) :
    val_main_v74 (F := Ideal) x1 (ix2 r (0 : Fin 4)) = val_main_v64 (F := Ideal) x1 (ix2 r (0 : Fin 1)) := by
  unfold val_main_v74
  exact concatenate_apply_piece (1 : Fin 2) _ _ (ix2 r (0 : Fin 4)) 0 (by simp) S14400x1 (val_main_v64 (F := Ideal) x1) rfl rfl 0 rfl
    (ix2 r (0 : Fin 1)) (fun b hb => match b with | ⟨0, _⟩ => rfl | ⟨1, _⟩ => absurd rfl hb) rfl

/-- Column 1 of the concatenation is the second corner column. -/
theorem v74_c1 (x1 : (⟨S16x900x4, .f32⟩ : BufTy).Contents (Elt Ideal)) (r : Fin 14400) :
    val_main_v74 (F := Ideal) x1 (ix2 r (1 : Fin 4)) = val_main_v67 (F := Ideal) x1 (ix2 r (0 : Fin 1)) := by
  unfold val_main_v74
  exact concatenate_apply_piece (1 : Fin 2) _ _ (ix2 r (1 : Fin 4)) 1 (by simp) S14400x1 (val_main_v67 (F := Ideal) x1) rfl rfl 1 rfl
    (ix2 r (0 : Fin 1)) (fun b hb => match b with | ⟨0, _⟩ => rfl | ⟨1, _⟩ => absurd rfl hb) rfl

/-- Column 2 of the concatenation is the third corner column. -/
theorem v74_c2 (x1 : (⟨S16x900x4, .f32⟩ : BufTy).Contents (Elt Ideal)) (r : Fin 14400) :
    val_main_v74 (F := Ideal) x1 (ix2 r (2 : Fin 4)) = val_main_v70 (F := Ideal) x1 (ix2 r (0 : Fin 1)) := by
  unfold val_main_v74
  exact concatenate_apply_piece (1 : Fin 2) _ _ (ix2 r (2 : Fin 4)) 2 (by simp) S14400x1 (val_main_v70 (F := Ideal) x1) rfl rfl 2 rfl
    (ix2 r (0 : Fin 1)) (fun b hb => match b with | ⟨0, _⟩ => rfl | ⟨1, _⟩ => absurd rfl hb) rfl

/-- Column 3 of the concatenation is the fourth corner column. -/
theorem v74_c3 (x1 : (⟨S16x900x4, .f32⟩ : BufTy).Contents (Elt Ideal)) (r : Fin 14400) :
    val_main_v74 (F := Ideal) x1 (ix2 r (3 : Fin 4)) = val_main_v73 (F := Ideal) x1 (ix2 r (0 : Fin 1)) := by
  unfold val_main_v74
  exact concatenate_apply_piece (1 : Fin 2) _ _ (ix2 r (3 : Fin 4)) 3 (by simp) S14400x1 (val_main_v73 (F := Ideal) x1) rfl rfl 3 rfl
    (ix2 r (0 : Fin 1)) (fun b hb => match b with | ⟨0, _⟩ => rfl | ⟨1, _⟩ => absurd rfl hb) rfl

/-! ## The two areas -/

/-- Corner column 2 as a vector over the rows. -/
theorem v76_at (x1 : (⟨S16x900x4, .f32⟩ : BufTy).Contents (Elt Ideal)) (r : Fin 14400) :
    val_main_v76 (F := Ideal) x1 (ix1 r) = val_main_v74 (F := Ideal) x1 (ix2 r (2 : Fin 4)) := by
  rw [val_main_v76_apply, val_main_v75_apply]
  exact congrArg _ (funext fun a => match a with | ⟨0, _⟩ => Fin.ext (Nat.div_one _) | ⟨1, _⟩ => rfl)

/-- Corner column 0 as a vector over the rows. -/
theorem v78_at (x1 : (⟨S16x900x4, .f32⟩ : BufTy).Contents (Elt Ideal)) (r : Fin 14400) :
    val_main_v78 (F := Ideal) x1 (ix1 r) = val_main_v74 (F := Ideal) x1 (ix2 r (0 : Fin 4)) := by
  rw [val_main_v78_apply, val_main_v77_apply]
  exact congrArg _ (funext fun a => match a with | ⟨0, _⟩ => Fin.ext (Nat.div_one _) | ⟨1, _⟩ => rfl)

/-- Corner column 3 as a vector over the rows. -/
theorem v81_at (x1 : (⟨S16x900x4, .f32⟩ : BufTy).Contents (Elt Ideal)) (r : Fin 14400) :
    val_main_v81 (F := Ideal) x1 (ix1 r) = val_main_v74 (F := Ideal) x1 (ix2 r (3 : Fin 4)) := by
  rw [val_main_v81_apply, val_main_v80_apply]
  exact congrArg _ (funext fun a => match a with | ⟨0, _⟩ => Fin.ext (Nat.div_one _) | ⟨1, _⟩ => rfl)

/-- Corner column 1 as a vector over the rows. -/
theorem v83_at (x1 : (⟨S16x900x4, .f32⟩ : BufTy).Contents (Elt Ideal)) (r : Fin 14400) :
    val_main_v83 (F := Ideal) x1 (ix1 r) = val_main_v74 (F := Ideal) x1 (ix2 r (1 : Fin 4)) := by
  rw [val_main_v83_apply, val_main_v82_apply]
  exact congrArg _ (funext fun a => match a with | ⟨0, _⟩ => Fin.ext (Nat.div_one _) | ⟨1, _⟩ => rfl)

/-- The prediction's area at a row: width times height of its corner form. -/
theorem v85_at (x1 : (⟨S16x900x4, .f32⟩ : BufTy).Contents (Elt Ideal)) (r : Fin 14400) :
    val_main_v85 (F := Ideal) x1 (ix1 r) = (val_main_v74 (F := Ideal) x1 (ix2 r (2 : Fin 4)) - val_main_v74 (F := Ideal) x1 (ix2 r (0 : Fin 4))) * (val_main_v74 (F := Ideal) x1 (ix2 r (3 : Fin 4)) - val_main_v74 (F := Ideal) x1 (ix2 r (1 : Fin 4))) := by
  rw [val_main_v85_apply, val_main_v79_apply, val_main_v84_apply, v76_at, v78_at, v81_at, v83_at]
  rfl

/-- The targets' coordinate 2 as a vector over the targets. -/
theorem v87_at (x2 : (⟨S1600x4, .f32⟩ : BufTy).Contents (Elt Ideal)) (t : Fin 1600) :
    val_main_v87 (F := Ideal) x2 (ix1 t) = x2 (ix2 t (2 : Fin 4)) := by
  rw [val_main_v87_apply, val_main_v86_apply]
  exact congrArg _ (funext fun a => match a with | ⟨0, _⟩ => Fin.ext (Nat.div_one _) | ⟨1, _⟩ => rfl)

/-- The targets' coordinate 0 as a vector over the targets. -/
theorem v89_at (x2 : (⟨S1600x4, .f32⟩ : BufTy).Contents (Elt Ideal)) (t : Fin 1600) :
    val_main_v89 (F := Ideal) x2 (ix1 t) = x2 (ix2 t (0 : Fin 4)) := by
  rw [val_main_v89_apply, val_main_v88_apply]
  exact congrArg _ (funext fun a => match a with | ⟨0, _⟩ => Fin.ext (Nat.div_one _) | ⟨1, _⟩ => rfl)

/-- The targets' coordinate 3 as a vector over the targets. -/
theorem v92_at (x2 : (⟨S1600x4, .f32⟩ : BufTy).Contents (Elt Ideal)) (t : Fin 1600) :
    val_main_v92 (F := Ideal) x2 (ix1 t) = x2 (ix2 t (3 : Fin 4)) := by
  rw [val_main_v92_apply, val_main_v91_apply]
  exact congrArg _ (funext fun a => match a with | ⟨0, _⟩ => Fin.ext (Nat.div_one _) | ⟨1, _⟩ => rfl)

/-- The targets' coordinate 1 as a vector over the targets. -/
theorem v94_at (x2 : (⟨S1600x4, .f32⟩ : BufTy).Contents (Elt Ideal)) (t : Fin 1600) :
    val_main_v94 (F := Ideal) x2 (ix1 t) = x2 (ix2 t (1 : Fin 4)) := by
  rw [val_main_v94_apply, val_main_v93_apply]
  exact congrArg _ (funext fun a => match a with | ⟨0, _⟩ => Fin.ext (Nat.div_one _) | ⟨1, _⟩ => rfl)

/-- A target's area. -/
theorem v96_at (x2 : (⟨S1600x4, .f32⟩ : BufTy).Contents (Elt Ideal)) (t : Fin 1600) :
    val_main_v96 (F := Ideal) x2 (ix1 t) = (x2 (ix2 t (2 : Fin 4)) - x2 (ix2 t (0 : Fin 4))) * (x2 (ix2 t (3 : Fin 4)) - x2 (ix2 t (1 : Fin 4))) := by
  rw [val_main_v96_apply, val_main_v90_apply, val_main_v95_apply, v87_at, v89_at, v92_at, v94_at]
  rfl

/-! ## The intersection and the enclosing box

On the arrays indexed (row, target, axis) the last coordinate is the axis: 0 for x, 1 for y. The prediction's slices
read corner columns, the targets' slices read the target's coordinates, both broadcast over the other index. -/

/-- The prediction's corner column 0, broadcast over the targets. -/
theorem v101_at0 (x1 : (⟨S16x900x4, .f32⟩ : BufTy).Contents (Elt Ideal)) (r : Fin 14400) (t : Fin 1600) :
    val_main_v101 (F := Ideal) x1 (ix3 r t (0 : Fin 2)) = val_main_v74 (F := Ideal) x1 (ix2 r (0 : Fin 4)) := by
  rw [val_main_v101_apply, val_main_v98_apply, val_main_v97_apply]
  exact congrArg _ (funext fun a => match a with | ⟨0, _⟩ => rfl | ⟨1, _⟩ => rfl)

/-- The prediction's corner column 1, broadcast over the targets. -/
theorem v101_at1 (x1 : (⟨S16x900x4, .f32⟩ : BufTy).Contents (Elt Ideal)) (r : Fin 14400) (t : Fin 1600) :
    val_main_v101 (F := Ideal) x1 (ix3 r t (1 : Fin 2)) = val_main_v74 (F := Ideal) x1 (ix2 r (1 : Fin 4)) := by
  rw [val_main_v101_apply, val_main_v98_apply, val_main_v97_apply]
  exact congrArg _ (funext fun a => match a with | ⟨0, _⟩ => rfl | ⟨1, _⟩ => rfl)

/-- The target's coordinate 0, broadcast over the rows. -/
theorem v102_at0 (x2 : (⟨S1600x4, .f32⟩ : BufTy).Contents (Elt Ideal)) (r : Fin 14400) (t : Fin 1600) :
    val_main_v102 (F := Ideal) x2 (ix3 r t (0 : Fin 2)) = x2 (ix2 t (0 : Fin 4)) := by
  rw [val_main_v102_apply, val_main_v100_apply, val_main_v99_apply]
  exact congrArg _ (funext fun a => match a with | ⟨0, _⟩ => rfl | ⟨1, _⟩ => rfl)

/-- The target's coordinate 1, broadcast over the rows. -/
theorem v102_at1 (x2 : (⟨S1600x4, .f32⟩ : BufTy).Contents (Elt Ideal)) (r : Fin 14400) (t : Fin 1600) :
    val_main_v102 (F := Ideal) x2 (ix3 r t (1 : Fin 2)) = x2 (ix2 t (1 : Fin 4)) := by
  rw [val_main_v102_apply, val_main_v100_apply, val_main_v99_apply]
  exact congrArg _ (funext fun a => match a with | ⟨0, _⟩ => rfl | ⟨1, _⟩ => rfl)

/-- The prediction's corner column 2, broadcast over the targets. -/
theorem v108_at0 (x1 : (⟨S16x900x4, .f32⟩ : BufTy).Contents (Elt Ideal)) (r : Fin 14400) (t : Fin 1600) :
    val_main_v108 (F := Ideal) x1 (ix3 r t (0 : Fin 2)) = val_main_v74 (F := Ideal) x1 (ix2 r (2 : Fin 4)) := by
  rw [val_main_v108_apply, val_main_v105_apply, val_main_v104_apply]
  exact congrArg _ (funext fun a => match a with | ⟨0, _⟩ => rfl | ⟨1, _⟩ => rfl)

/-- The prediction's corner column 3, broadcast over the targets. -/
theorem v108_at1 (x1 : (⟨S16x900x4, .f32⟩ : BufTy).Contents (Elt Ideal)) (r : Fin 14400) (t : Fin 1600) :
    val_main_v108 (F := Ideal) x1 (ix3 r t (1 : Fin 2)) = val_main_v74 (F := Ideal) x1 (ix2 r (3 : Fin 4)) := by
  rw [val_main_v108_apply, val_main_v105_apply, val_main_v104_apply]
  exact congrArg _ (funext fun a => match a with | ⟨0, _⟩ => rfl | ⟨1, _⟩ => rfl)

/-- The target's coordinate 2, broadcast over the rows. -/
theorem v109_at0 (x2 : (⟨S1600x4, .f32⟩ : BufTy).Contents (Elt Ideal)) (r : Fin 14400) (t : Fin 1600) :
    val_main_v109 (F := Ideal) x2 (ix3 r t (0 : Fin 2)) = x2 (ix2 t (2 : Fin 4)) := by
  rw [val_main_v109_apply, val_main_v107_apply, val_main_v106_apply]
  exact congrArg _ (funext fun a => match a with | ⟨0, _⟩ => rfl | ⟨1, _⟩ => rfl)

/-- The target's coordinate 3, broadcast over the rows. -/
theorem v109_at1 (x2 : (⟨S1600x4, .f32⟩ : BufTy).Contents (Elt Ideal)) (r : Fin 14400) (t : Fin 1600) :
    val_main_v109 (F := Ideal) x2 (ix3 r t (1 : Fin 2)) = x2 (ix2 t (3 : Fin 4)) := by
  rw [val_main_v109_apply, val_main_v107_apply, val_main_v106_apply]
  exact congrArg _ (funext fun a => match a with | ⟨0, _⟩ => rfl | ⟨1, _⟩ => rfl)

/-- The prediction's corner column 0, broadcast over the targets. -/
theorem v129_at0 (x1 : (⟨S16x900x4, .f32⟩ : BufTy).Contents (Elt Ideal)) (r : Fin 14400) (t : Fin 1600) :
    val_main_v129 (F := Ideal) x1 (ix3 r t (0 : Fin 2)) = val_main_v74 (F := Ideal) x1 (ix2 r (0 : Fin 4)) := by
  rw [val_main_v129_apply, val_main_v126_apply, val_main_v125_apply]
  exact congrArg _ (funext fun a => match a with | ⟨0, _⟩ => rfl | ⟨1, _⟩ => rfl)

/-- The prediction's corner column 1, broadcast over the targets. -/
theorem v129_at1 (x1 : (⟨S16x900x4, .f32⟩ : BufTy).Contents (Elt Ideal)) (r : Fin 14400) (t : Fin 1600) :
    val_main_v129 (F := Ideal) x1 (ix3 r t (1 : Fin 2)) = val_main_v74 (F := Ideal) x1 (ix2 r (1 : Fin 4)) := by
  rw [val_main_v129_apply, val_main_v126_apply, val_main_v125_apply]
  exact congrArg _ (funext fun a => match a with | ⟨0, _⟩ => rfl | ⟨1, _⟩ => rfl)

/-- The target's coordinate 0, broadcast over the rows. -/
theorem v130_at0 (x2 : (⟨S1600x4, .f32⟩ : BufTy).Contents (Elt Ideal)) (r : Fin 14400) (t : Fin 1600) :
    val_main_v130 (F := Ideal) x2 (ix3 r t (0 : Fin 2)) = x2 (ix2 t (0 : Fin 4)) := by
  rw [val_main_v130_apply, val_main_v128_apply, val_main_v127_apply]
  exact congrArg _ (funext fun a => match a with | ⟨0, _⟩ => rfl | ⟨1, _⟩ => rfl)

/-- The target's coordinate 1, broadcast over the rows. -/
theorem v130_at1 (x2 : (⟨S1600x4, .f32⟩ : BufTy).Contents (Elt Ideal)) (r : Fin 14400) (t : Fin 1600) :
    val_main_v130 (F := Ideal) x2 (ix3 r t (1 : Fin 2)) = x2 (ix2 t (1 : Fin 4)) := by
  rw [val_main_v130_apply, val_main_v128_apply, val_main_v127_apply]
  exact congrArg _ (funext fun a => match a with | ⟨0, _⟩ => rfl | ⟨1, _⟩ => rfl)

/-- The prediction's corner column 2, broadcast over the targets. -/
theorem v136_at0 (x1 : (⟨S16x900x4, .f32⟩ : BufTy).Contents (Elt Ideal)) (r : Fin 14400) (t : Fin 1600) :
    val_main_v136 (F := Ideal) x1 (ix3 r t (0 : Fin 2)) = val_main_v74 (F := Ideal) x1 (ix2 r (2 : Fin 4)) := by
  rw [val_main_v136_apply, val_main_v133_apply, val_main_v132_apply]
  exact congrArg _ (funext fun a => match a with | ⟨0, _⟩ => rfl | ⟨1, _⟩ => rfl)

/-- The prediction's corner column 3, broadcast over the targets. -/
theorem v136_at1 (x1 : (⟨S16x900x4, .f32⟩ : BufTy).Contents (Elt Ideal)) (r : Fin 14400) (t : Fin 1600) :
    val_main_v136 (F := Ideal) x1 (ix3 r t (1 : Fin 2)) = val_main_v74 (F := Ideal) x1 (ix2 r (3 : Fin 4)) := by
  rw [val_main_v136_apply, val_main_v133_apply, val_main_v132_apply]
  exact congrArg _ (funext fun a => match a with | ⟨0, _⟩ => rfl | ⟨1, _⟩ => rfl)

/-- The target's coordinate 2, broadcast over the rows. -/
theorem v137_at0 (x2 : (⟨S1600x4, .f32⟩ : BufTy).Contents (Elt Ideal)) (r : Fin 14400) (t : Fin 1600) :
    val_main_v137 (F := Ideal) x2 (ix3 r t (0 : Fin 2)) = x2 (ix2 t (2 : Fin 4)) := by
  rw [val_main_v137_apply, val_main_v135_apply, val_main_v134_apply]
  exact congrArg _ (funext fun a => match a with | ⟨0, _⟩ => rfl | ⟨1, _⟩ => rfl)

/-- The target's coordinate 3, broadcast over the rows. -/
theorem v137_at1 (x2 : (⟨S1600x4, .f32⟩ : BufTy).Contents (Elt Ideal)) (r : Fin 14400) (t : Fin 1600) :
    val_main_v137 (F := Ideal) x2 (ix3 r t (1 : Fin 2)) = x2 (ix2 t (3 : Fin 4)) := by
  rw [val_main_v137_apply, val_main_v135_apply, val_main_v134_apply]
  exact congrArg _ (funext fun a => match a with | ⟨0, _⟩ => rfl | ⟨1, _⟩ => rfl)

/-- The broadcast zero the cut-off compares against. -/
theorem call0_v1_at (i : S14400x1600x2.Idx) : val_main_call0_v1 (F := Ideal) i = 0 := by
  rw [val_main_call0_v1_apply]
  exact Ideal.ofBits_zero_f32

/-- The broadcast zero the cut-off compares against. -/
theorem call1_v1_at (i : S14400x1600x2.Idx) : val_main_call1_v1 (F := Ideal) i = 0 := by
  rw [val_main_call1_v1_apply]
  exact Ideal.ofBits_zero_f32

/-- The intersection's extent along axis 0, cut off below at zero. -/
theorem v112_at0 (x1 : (⟨S16x900x4, .f32⟩ : BufTy).Contents (Elt Ideal)) (x2 : (⟨S1600x4, .f32⟩ : BufTy).Contents (Elt Ideal)) (r : Fin 14400) (t : Fin 1600) :
    val_main_v112 (F := Ideal) x1 x2 (ix3 r t (0 : Fin 2))
      = max 0 (min (val_main_v74 (F := Ideal) x1 (ix2 r (2 : Fin 4))) (x2 (ix2 t (2 : Fin 4))) - max (val_main_v74 (F := Ideal) x1 (ix2 r (0 : Fin 4))) (x2 (ix2 t (0 : Fin 4)))) := by
  rw [val_main_v112_apply, call0_v1_at, val_main_v111_apply, val_main_v110_apply, val_main_v103_apply,
    v101_at0, v102_at0, v108_at0, v109_at0]
  rfl

/-- The enclosing box's extent along axis 0, cut off below at zero. -/
theorem v140_at0 (x1 : (⟨S16x900x4, .f32⟩ : BufTy).Contents (Elt Ideal)) (x2 : (⟨S1600x4, .f32⟩ : BufTy).Contents (Elt Ideal)) (r : Fin 14400) (t : Fin 1600) :
    val_main_v140 (F := Ideal) x1 x2 (ix3 r t (0 : Fin 2))
      = max 0 (max (val_main_v74 (F := Ideal) x1 (ix2 r (2 : Fin 4))) (x2 (ix2 t (2 : Fin 4))) - min (val_main_v74 (F := Ideal) x1 (ix2 r (0 : Fin 4))) (x2 (ix2 t (0 : Fin 4)))) := by
  rw [val_main_v140_apply, call1_v1_at, val_main_v139_apply, val_main_v138_apply, val_main_v131_apply,
    v136_at0, v137_at0, v129_at0, v130_at0]
  rfl

/-- The intersection's extent along axis 1, cut off below at zero. -/
theorem v112_at1 (x1 : (⟨S16x900x4, .f32⟩ : BufTy).Contents (Elt Ideal)) (x2 : (⟨S1600x4, .f32⟩ : BufTy).Contents (Elt Ideal)) (r : Fin 14400) (t : Fin 1600) :
    val_main_v112 (F := Ideal) x1 x2 (ix3 r t (1 : Fin 2))
      = max 0 (min (val_main_v74 (F := Ideal) x1 (ix2 r (3 : Fin 4))) (x2 (ix2 t (3 : Fin 4))) - max (val_main_v74 (F := Ideal) x1 (ix2 r (1 : Fin 4))) (x2 (ix2 t (1 : Fin 4)))) := by
  rw [val_main_v112_apply, call0_v1_at, val_main_v111_apply, val_main_v110_apply, val_main_v103_apply,
    v101_at1, v102_at1, v108_at1, v109_at1]
  rfl

/-- The enclosing box's extent along axis 1, cut off below at zero. -/
theorem v140_at1 (x1 : (⟨S16x900x4, .f32⟩ : BufTy).Contents (Elt Ideal)) (x2 : (⟨S1600x4, .f32⟩ : BufTy).Contents (Elt Ideal)) (r : Fin 14400) (t : Fin 1600) :
    val_main_v140 (F := Ideal) x1 x2 (ix3 r t (1 : Fin 2))
      = max 0 (max (val_main_v74 (F := Ideal) x1 (ix2 r (3 : Fin 4))) (x2 (ix2 t (3 : Fin 4))) - min (val_main_v74 (F := Ideal) x1 (ix2 r (1 : Fin 4))) (x2 (ix2 t (1 : Fin 4)))) := by
  rw [val_main_v140_apply, call1_v1_at, val_main_v139_apply, val_main_v138_apply, val_main_v131_apply,
    v136_at1, v137_at1, v129_at1, v130_at1]
  rfl

/-- Component 0 of the last axis as an array over (row, target). -/
theorem v114_at (x1 : (⟨S16x900x4, .f32⟩ : BufTy).Contents (Elt Ideal)) (x2 : (⟨S1600x4, .f32⟩ : BufTy).Contents (Elt Ideal)) (r : Fin 14400) (t : Fin 1600) :
    val_main_v114 (F := Ideal) x1 x2 (ix2 r t) = val_main_v112 (F := Ideal) x1 x2 (ix3 r t (0 : Fin 2)) := by
  rw [val_main_v114_apply, val_main_v113_apply]
  have hr := r.isLt
  have ht := t.isLt
  exact congrArg _ (funext fun a => match a with
    | ⟨0, _⟩ => Fin.ext (by show (r.val * 1600 + t.val) / 1600 = r.val; omega)
    | ⟨1, _⟩ => Fin.ext (by show (r.val * 1600 + t.val) / 1 % 1600 = t.val; omega)
    | ⟨2, _⟩ => rfl)

/-- Component 1 of the last axis as an array over (row, target). -/
theorem v116_at (x1 : (⟨S16x900x4, .f32⟩ : BufTy).Contents (Elt Ideal)) (x2 : (⟨S1600x4, .f32⟩ : BufTy).Contents (Elt Ideal)) (r : Fin 14400) (t : Fin 1600) :
    val_main_v116 (F := Ideal) x1 x2 (ix2 r t) = val_main_v112 (F := Ideal) x1 x2 (ix3 r t (1 : Fin 2)) := by
  rw [val_main_v116_apply, val_main_v115_apply]
  have hr := r.isLt
  have ht := t.isLt
  exact congrArg _ (funext fun a => match a with
    | ⟨0, _⟩ => Fin.ext (by show (r.val * 1600 + t.val) / 1600 = r.val; omega)
    | ⟨1, _⟩ => Fin.ext (by show (r.val * 1600 + t.val) / 1 % 1600 = t.val; omega)
    | ⟨2, _⟩ => rfl)

/-- Component 0 of the last axis as an array over (row, target). -/
theorem v142_at (x1 : (⟨S16x900x4, .f32⟩ : BufTy).Contents (Elt Ideal)) (x2 : (⟨S1600x4, .f32⟩ : BufTy).Contents (Elt Ideal)) (r : Fin 14400) (t : Fin 1600) :
    val_main_v142 (F := Ideal) x1 x2 (ix2 r t) = val_main_v140 (F := Ideal) x1 x2 (ix3 r t (0 : Fin 2)) := by
  rw [val_main_v142_apply, val_main_v141_apply]
  have hr := r.isLt
  have ht := t.isLt
  exact congrArg _ (funext fun a => match a with
    | ⟨0, _⟩ => Fin.ext (by show (r.val * 1600 + t.val) / 1600 = r.val; omega)
    | ⟨1, _⟩ => Fin.ext (by show (r.val * 1600 + t.val) / 1 % 1600 = t.val; omega)
    | ⟨2, _⟩ => rfl)

/-- Component 1 of the last axis as an array over (row, target). -/
theorem v144_at (x1 : (⟨S16x900x4, .f32⟩ : BufTy).Contents (Elt Ideal)) (x2 : (⟨S1600x4, .f32⟩ : BufTy).Contents (Elt Ideal)) (r : Fin 14400) (t : Fin 1600) :
    val_main_v144 (F := Ideal) x1 x2 (ix2 r t) = val_main_v140 (F := Ideal) x1 x2 (ix3 r t (1 : Fin 2)) := by
  rw [val_main_v144_apply, val_main_v143_apply]
  have hr := r.isLt
  have ht := t.isLt
  exact congrArg _ (funext fun a => match a with
    | ⟨0, _⟩ => Fin.ext (by show (r.val * 1600 + t.val) / 1600 = r.val; omega)
    | ⟨1, _⟩ => Fin.ext (by show (r.val * 1600 + t.val) / 1 % 1600 = t.val; omega)
    | ⟨2, _⟩ => rfl)

/-- The intersection's area. -/
theorem v117_at (x1 : (⟨S16x900x4, .f32⟩ : BufTy).Contents (Elt Ideal)) (x2 : (⟨S1600x4, .f32⟩ : BufTy).Contents (Elt Ideal)) (r : Fin 14400) (t : Fin 1600) :
    val_main_v117 (F := Ideal) x1 x2 (ix2 r t)
      = max 0 (min (val_main_v74 (F := Ideal) x1 (ix2 r (2 : Fin 4))) (x2 (ix2 t (2 : Fin 4))) - max (val_main_v74 (F := Ideal) x1 (ix2 r (0 : Fin 4))) (x2 (ix2 t (0 : Fin 4)))) * max 0 (min (val_main_v74 (F := Ideal) x1 (ix2 r (3 : Fin 4))) (x2 (ix2 t (3 : Fin 4))) - max (val_main_v74 (F := Ideal) x1 (ix2 r (1 : Fin 4))) (x2 (ix2 t (1 : Fin 4)))) := by
  rw [val_main_v117_apply, v114_at, v116_at, v112_at0, v112_at1]
  rfl

/-- The enclosing box's area. -/
theorem v145_at (x1 : (⟨S16x900x4, .f32⟩ : BufTy).Contents (Elt Ideal)) (x2 : (⟨S1600x4, .f32⟩ : BufTy).Contents (Elt Ideal)) (r : Fin 14400) (t : Fin 1600) :
    val_main_v145 (F := Ideal) x1 x2 (ix2 r t)
      = max 0 (max (val_main_v74 (F := Ideal) x1 (ix2 r (2 : Fin 4))) (x2 (ix2 t (2 : Fin 4))) - min (val_main_v74 (F := Ideal) x1 (ix2 r (0 : Fin 4))) (x2 (ix2 t (0 : Fin 4)))) * max 0 (max (val_main_v74 (F := Ideal) x1 (ix2 r (3 : Fin 4))) (x2 (ix2 t (3 : Fin 4))) - min (val_main_v74 (F := Ideal) x1 (ix2 r (1 : Fin 4))) (x2 (ix2 t (1 : Fin 4)))) := by
  rw [val_main_v145_apply, v142_at, v144_at, v140_at0, v140_at1]
  rfl

/-- The prediction's area broadcast over the targets. -/
theorem v120_at (x1 : (⟨S16x900x4, .f32⟩ : BufTy).Contents (Elt Ideal)) (r : Fin 14400) (t : Fin 1600) :
    val_main_v120 (F := Ideal) x1 (ix2 r t) = val_main_v85 (F := Ideal) x1 (ix1 r) := by
  rw [val_main_v120_apply, val_main_v118_apply]
  exact congrArg _ (funext fun a => match a with | ⟨0, _⟩ => rfl)

/-- The target's area broadcast over the rows. -/
theorem v121_at (x2 : (⟨S1600x4, .f32⟩ : BufTy).Contents (Elt Ideal)) (r : Fin 14400) (t : Fin 1600) :
    val_main_v121 (F := Ideal) x2 (ix2 r t) = val_main_v96 (F := Ideal) x2 (ix1 t) := by
  rw [val_main_v121_apply, val_main_v119_apply]
  exact congrArg _ (funext fun a => match a with | ⟨0, _⟩ => rfl)

/-- The union: the two areas' sum less the intersection. -/
theorem v123_at (x1 : (⟨S16x900x4, .f32⟩ : BufTy).Contents (Elt Ideal)) (x2 : (⟨S1600x4, .f32⟩ : BufTy).Contents (Elt Ideal)) (r : Fin 14400) (t : Fin 1600) :
    val_main_v123 (F := Ideal) x1 x2 (ix2 r t)
      = (val_main_v74 (F := Ideal) x1 (ix2 r (2 : Fin 4)) - val_main_v74 (F := Ideal) x1 (ix2 r (0 : Fin 4))) * (val_main_v74 (F := Ideal) x1 (ix2 r (3 : Fin 4)) - val_main_v74 (F := Ideal) x1 (ix2 r (1 : Fin 4))) + (x2 (ix2 t (2 : Fin 4)) - x2 (ix2 t (0 : Fin 4))) * (x2 (ix2 t (3 : Fin 4)) - x2 (ix2 t (1 : Fin 4)))
        - val_main_v117 (F := Ideal) x1 x2 (ix2 r t) := by
  rw [val_main_v123_apply, val_main_v122_apply, v120_at, v121_at, v85_at, v96_at]
  rfl

end Giou

open Giou

/-! ## The generalized overlap -/

theorem giou_apply (x1 : (⟨S16x900x4, .f32⟩ : BufTy).Contents (Elt Ideal)) (x2 : (⟨S1600x4, .f32⟩ : BufTy).Contents (Elt Ideal))
    (b : Fin 16) (q : Fin 900) (t : Fin 1600) :
    val_main_v148 (F := Ideal) x1 x2 (ix2 (row b q) t)
      = giou (x1 (ix3 b q (0 : Fin 4)) - half * x1 (ix3 b q (2 : Fin 4))) (x1 (ix3 b q (1 : Fin 4)) - half * x1 (ix3 b q (3 : Fin 4)))
          (x1 (ix3 b q (0 : Fin 4)) + half * x1 (ix3 b q (2 : Fin 4))) (x1 (ix3 b q (1 : Fin 4)) + half * x1 (ix3 b q (3 : Fin 4)))
          (x2 (ix2 t (0 : Fin 4))) (x2 (ix2 t (1 : Fin 4))) (x2 (ix2 t (2 : Fin 4))) (x2 (ix2 t (3 : Fin 4))) := by
  rw [val_main_v148_apply, val_main_v124_apply, val_main_v147_apply, val_main_v146_apply, v123_at, v117_at, v145_at,
    v74_c0, v74_c1, v74_c2, v74_c3, v64_at, v67_at, v70_at, v73_at, v7_at, v7_at, v7_at, v7_at]
  rfl

end Cert.ReferenceIdeal.RefVal

end
-- ==== Proof.RefTotal.lean ====
/-
  The reference's result array is the specification's cost array, for labels inside the class range.

  The last operations of the reference are: five times the summed absolute differences, plus two times the gathered
  class cost, plus two times the negated overlap, then the reshape of [14400, 1600] to [16, 900, 1600], which sends
  (b, q, t) to row b·900 + q, column t.  A negation is a subtraction from zero, and for a label inside the class range
  the specification's class term is the focal difference at the label's logit.
-/
import proofs.«419403_j7387343749451_2_alg».proof.Proof.Gen.ReferenceIdeal.Read
import proofs.«419403_j7387343749451_2_alg».proof.Proof.Spec
import Idealize.ShloMosaic.Lib.ValueIdx
import Idealize.ShloMosaic.Lib.Pipeline.Value
import Idealize.ShloMosaic.PureOps.Ideal.Laws
import proofs.«419403_j7387343749451_2_alg».proof.Proof.Row
import proofs.«419403_j7387343749451_2_alg».proof.Proof.RefClass
import proofs.«419403_j7387343749451_2_alg».proof.Proof.RefL1
import proofs.«419403_j7387343749451_2_alg».proof.Proof.RefGiou

noncomputable section

open scoped BigOperators

namespace Cert.ReferenceIdeal.RefVal

open Cert.ReferenceIdeal Cert.ReferenceIdeal.Gen Cert.ReferenceIdeal.Read
open Idealize.ShloMosaic Idealize.ShloMosaic.ValueIdx Cert.CostSpec

theorem ref_total (x0 : (⟨S16x900x80, .f32⟩ : BufTy).Contents (Elt Ideal)) (x1 : (⟨S16x900x4, .f32⟩ : BufTy).Contents (Elt Ideal))
    (x2 : (⟨S1600x4, .f32⟩ : BufTy).Contents (Elt Ideal)) (x3 : (⟨S1600, .i32⟩ : BufTy).Contents (Elt Ideal))
    (hL : ∀ t : Fin 1600, (x3 (ix1 t)).toNat < 80) (b : Fin 16) (q : Fin 900) (t : Fin 1600) :
    val_main_v158 (F := Ideal) x0 x1 x2 x3 (ix3 b q t) = costAt x0 x1 x2 x3 b q t := by
  have hidx : idx_main_v158 (ix3 b q t) = ix2 (row b q) t := by
    funext a; apply Fin.ext
    match a with
    | ⟨0, _⟩ => show ((b.val * 900 + q.val) * 1600 + t.val) / 1600 = b.val * 900 + q.val; have := t.isLt; omega
    | ⟨1, _⟩ => show ((b.val * 900 + q.val) * 1600 + t.val) % 1600 = t.val; have := t.isLt; omega
  rw [val_main_v158_apply, hidx, val_main_v157_apply, val_main_v154_apply, val_main_v151_apply, val_main_v153_apply,
    val_main_v156_apply, val_main_v149_apply, val_main_v150_apply, val_main_v152_apply, val_main_v155_apply,
    val_main_cst_19_apply, val_main_cst_20_apply, val_main_cst_21_apply, l1_apply, gather_apply _ _ hL, giou_apply]
  unfold costAt pairCost
  rw [classTerm_of_lt _ _ _ _ (hL t)]
  simp only [Ideal.mulf_def, Ideal.addf_def, Ideal.hostNegf_def, Ideal.negf_def, Ideal.ofBits_def, zero_sub]

/-- The reference run's result term is the specification's array. -/
theorem ref_result (m' : (ℓ : Loc nD τ sig) → Buf (Elt Ideal) ℓ) (c : Dev nD)
    (hL : ∀ t : Fin 1600, (m' ((c.tc : Thread nD τ).loc main_arg3) (ix1 t)).toNat < 80) :
    Cert.ReferenceIdeal.Value.res_main_v158 m' c
      = G (m' ((c.tc : Thread nD τ).loc main_arg0)) (m' ((c.tc : Thread nD τ).loc main_arg1))
          (m' ((c.tc : Thread nD τ).loc main_arg2)) (m' ((c.tc : Thread nD τ).loc main_arg3)) := by
  rw [val_main_v158_eq]
  funext i
  obtain ⟨b, q, t, rfl⟩ : ∃ (b : Fin 16) (q : Fin 900) (t : Fin 1600), i = ix3 b q t := ⟨i 0, i 1, i 2, eq_ix3 i⟩
  exact ref_total _ _ _ _ hL b q t

end Cert.ReferenceIdeal.RefVal

end
-- ==== Proof.PreRange.lean ====
/-
  Under the precondition every target label lies in the class range [0, 80).
-/
import proofs.«419403_j7387343749451_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Cert.Pre_finite_inputs

variable [Cert.Pre_finite_inputs.Facts]

/-- The scalar shape has exactly one index. -/
private instance : Subsingleton S_.Idx := ⟨fun a b => funext fun d => d.elim0⟩

/-- A 32-bit word whose signed value lies in [0, 80) has unsigned value below 80: a nonnegative
    signed value is the unsigned one. -/
private theorem toNat_lt_of_signed (w : BitVec 32) (h0 : (0#32 : BitVec 32).toInt ≤ w.toInt)
    (h1 : w.toInt < (80#32 : BitVec 32).toInt) : w.toNat < 80 := by
  rw [show (0#32 : BitVec 32).toInt = 0 from by decide] at h0
  rw [show (80#32 : BitVec 32).toInt = 80 from by decide] at h1
  rw [BitVec.toInt_eq_toNat_cond] at h0 h1
  split at h0 <;> omega

theorem labels_lt (a0 : FVec Ideal S16x900x80 .f32) (a1 : FVec Ideal S16x900x4 .f32) (a2 : FVec Ideal S1600x4 .f32) (a3 : IVec S1600 32)
    (h : Cert.Pre_finite_inputs.fn (F := Ideal) a0 a1 a2 a3 = fun _ => 1#1) (t : Fin 1600) : (a3 (ix1 t)).toNat < 80 := by
  -- the precondition is a scalar; read it at its one index
  have h0 := congrFun h ValueIdx.ix0
  unfold Cert.Pre_finite_inputs.fn Cert.Pre_finite_inputs.fn_part1 at h0
  dsimp only at h0
  -- a conjunction of bits is 1 only if each is: the last conjunct is the reduction over the labels
  have hred := (IntOp.andi_eq_one.1 h0).2
  -- a reduction by "and" over all 1600 positions that is 1 met a 1 at every position
  have hel := Host.reduce_andi_all _ _ _ _ _ hred (ix1 t)
  -- at position t the mask is the conjunction of 0 ≤ label and label < 80, both signed
  obtain ⟨hge, hlt⟩ := IntOp.andi_eq_one.1 hel
  have hge' := IntOp.cmpi_sge.1 hge
  have hlt' := IntOp.cmpi_slt.1 hlt
  -- a broadcast scalar reads as that scalar at every position
  rw [StableHlo.Predicate.bcast_scalar _ Facts.h_S_] at hge' hlt'
  exact toNat_lt_of_signed _ hge' hlt'

end Cert.PreRange

end
-- ==== Proof.lean ====
/-
  The matching-cost kernel against its reference: the five claims.

  The kernel computes, for every (query, target) pair, 5 · L1(box, target box) + 2 · (focal class cost at the target's
  label) + 2 · (−generalized IoU), in 30 row blocks of 480 queries; the class cost is picked out of the row's 80 focal
  differences by a product with a one-hot table of the labels.  The reference computes the same three terms on whole
  arrays and picks the class cost by indexing with the labels.

  • The two kernel programs (word-level and idealized) run to the end, fault nowhere and leave their arguments as
    launched: the pipelined region's body at a grid point only loads its input blocks and stores its output block, the
    host lines around the region write buffers of their own.
  • The reference program likewise: it is a straight line of host operations.
  • The idealization rewrote nothing, so the word-level and the idealized kernel are one text.
  • Over the extended reals both programs end with the specification's cost array of the arguments: on the kernel side
    each output block is the cost of the blocks' entries and the blocks tile the result; on the reference side the
    array expression is read index by index.  The two class terms agree because every label lies in [0, 80) under the
    precondition: the one-hot sum then has one non-zero summand, and the reference's index is neither wrapped nor
    clamped.  The reference's square by the power function agrees with a product because a logistic value is a real.
-/
import proofs.«419403_j7387343749451_2_alg».proof.Defs
import proofs.«419403_j7387343749451_2_alg».proof.Proof.Gen.Kernel
import proofs.«419403_j7387343749451_2_alg».proof.Proof.Gen.KernelIdeal
import proofs.«419403_j7387343749451_2_alg».proof.Proof.Gen.ReferenceIdeal
import proofs.«419403_j7387343749451_2_alg».proof.Proof.Gen.ReferenceIdeal.Run
import proofs.«419403_j7387343749451_2_alg».proof.Proof.Gen.ReferenceIdeal.Read
import proofs.«419403_j7387343749451_2_alg».proof.Proof.Gen.Pre_finite_inputs
import proofs.«419403_j7387343749451_2_alg».proof.Proof.FrameB
import proofs.«419403_j7387343749451_2_alg».proof.Proof.FrameI
import proofs.«419403_j7387343749451_2_alg».proof.Proof.KernelValue
import proofs.«419403_j7387343749451_2_alg».proof.Proof.RefTotal
import proofs.«419403_j7387343749451_2_alg».proof.Proof.PreRange
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Fr.frame m ρ

theorem frame_kernelIdeal : Cert.frame_KernelIdeal := fun m ρ _ => Cert.KernelIdeal.Fr.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's cost array of the arguments, which agree. -/
theorem algebraic : Cert.algebraic_KernelIdeal_ReferenceIdeal := by
  intro m ρ m' ρ' hpre hagree
  have hL : ∀ (c : Dev Cert.KernelIdeal.nD) (t : Fin 1600),
      (m ((c.tc : Thread Cert.KernelIdeal.nD Cert.KernelIdeal.τ).loc Cert.KernelIdeal.main_arg3) (ix1 t)).toNat < 80 :=
    fun c t => Cert.PreRange.labels_lt _ _ _ _ (hpre c) t
  refine ⟨fun c => Cert.CostSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Fr.result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefVal.ref_result m' c (by rw [(hagree c).2.2.2]; exact hL c),
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
